-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S5120x128 : Shape := ⟨2, ![5120, 128]⟩
abbrev S4880x128 : Shape := ⟨2, ![4880, 128]⟩
abbrev S256x10000 : Shape := ⟨2, ![256, 10000]⟩
abbrev S256x128 : Shape := ⟨2, ![256, 128]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S5120x128, .f32⟩
  | .hbm, ⟨4, _⟩ => ⟨S4880x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S256x10000, .f32⟩
  | .local _ .vmem, ⟨3, _⟩ => ⟨S256x10000, .f32⟩
  | .local _ .vmem, ⟨4, _⟩ => ⟨S256x10000, .f32⟩
  | .local _ .vmem, ⟨5, _⟩ => ⟨S256x10000, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0_0 : Ref sig .tc := ⟨.hbm, 3, rfl⟩
abbrev main_call0_v0_1 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S5120x128_S4880x128_S10000x128_d0 : Shape.Concatenates [S5120x128, S4880x128] S10000x128 0
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S256x10000_S256x10000_0_0 : ∀ a, (![0, 0] : Fin 2 → Nat) a + S256x10000.size a ≤ S256x10000.size a
  h_S256x10000 : 0 < S256x10000.numel
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x10000.size a < S10000x10000.size a
  hwx0_2 : ∀ i : grid0.Coords, EltTy.bits .f32 = 32 ∨ (Rect.unit (s := S10000x10000) (fun a => cc0_transform_2 i a * S256x10000.size a) (fun a => (Pipeline.Clip.of (cc0_transform_2 i a) (S256x10000.size a) (S10000x10000.size a)).extent (S256x10000.size a)) fun a => Pipeline.Clip.inb (Pipeline.Clip.ok_of (hstart0_2 i a))).WholeWords (EltTy.packing .f32)
  hwxs0_2 : ∀ i : grid0.Coords, EltTy.bits .f32 = 32 ∨ (Rect.unit (s := S256x10000) (fun _ => 0) (fun a => (Pipeline.Clip.of (cc0_transform_2 i a) (S256x10000.size a) (S10000x10000.size a)).extent (S256x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x10000.size a < S10000x10000.size a
  hwx0_3 : ∀ i : grid0.Coords, EltTy.bits .f32 = 32 ∨ (Rect.unit (s := S10000x10000) (fun a => cc0_transform_3 i a * S256x10000.size a) (fun a => (Pipeline.Clip.of (cc0_transform_3 i a) (S256x10000.size a) (S10000x10000.size a)).extent (S256x10000.size a)) fun a => Pipeline.Clip.inb (Pipeline.Clip.ok_of (hstart0_3 i a))).WholeWords (EltTy.packing .f32)
  hwxs0_3 : ∀ i : grid0.Coords, EltTy.bits .f32 = 32 ∨ (Rect.unit (s := S256x10000) (fun _ => 0) (fun a => (Pipeline.Clip.of (cc0_transform_3 i a) (S256x10000.size a) (S10000x10000.size a)).extent (S256x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S5120x128.size a
  hwx0_4 : ∀ i : grid0.Coords, EltTy.bits .f32 = 32 ∨ (Rect.block (s := S5120x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x128.size a < S4880x128.size a
  hwx0_5 : ∀ i : grid0.Coords, EltTy.bits .f32 = 32 ∨ (Rect.unit (s := S4880x128) (fun a => cc0_transform_5 i a * S256x128.size a) (fun a => (Pipeline.Clip.of (cc0_transform_5 i a) (S256x128.size a) (S4880x128.size a)).extent (S256x128.size a)) fun a => Pipeline.Clip.inb (Pipeline.Clip.ok_of (hstart0_5 i a))).WholeWords (EltTy.packing .f32)
  hwxs0_5 : ∀ i : grid0.Coords, EltTy.bits .f32 = 32 ∨ (Rect.unit (s := S256x128) (fun _ => 0) (fun a => (Pipeline.Clip.of (cc0_transform_5 i a) (S256x128.size a) (S4880x128.size a)).extent (S256x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S256x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S256x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v0_0) S256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v0_1) S256x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Blocks.lean ====
/-
  The blocks the graph-convolution kernel sees and what it leaves, for every float instance.

  The kernel computes `adj · (x · W)` over a grid of twenty points. The product `x · W` (the "support", 10000 × 128) is
  computed once, at the first point, into a buffer the kernel keeps between points; every point then multiplies TWO
  256-row bands of `adj` — band `t` (rows 256 t …) and band `t + 20` (rows 5120 + 256 t …) — by the support and
  writes the two 256 × 128 products to the two results (rows 0 … 5119 and rows 5120 … 9999 of the answer). The adjacency
  matrix is handed to the kernel twice, once per band stream, so two windows read one array. Band 39 overhangs the
  matrix (10000 = 39 · 256 + 16): only its first 16 rows exist, and only the first 16 rows of the last block of the
  second result are written back.

  This module fixes, per window and point, the contents named for each staging buffer after the body (`dats`), and
  proves what the body finds in each buffer when it runs (`before_*`).
-/
import proofs.«171387_g2783138808134_cont_9to1_832_9_alg».proof.Proof.Gen.KernelIdeal.Launch
import proofs.«171387_g2783138808134_cont_9to1_832_9_alg».proof.Proof.Gen.KernelIdeal.Skeleton
import proofs.«171387_g2783138808134_cont_9to1_832_9_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The first grid point. -/
abbrev t₀ : Fin cfg0.N := ⟨0, by decide⟩

/-- Window `w`'s block of its array at point `t`: the part of the block inside the array, read off the launch
    contents. -/
def iblk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The word that fills a band's staging rows past the matrix's end in the named contents (nothing reads it). -/
abbrev zf : Elt F .f32 := Scalar.ofBits .f32 0#32

/-- `x` and `W` as the kernel loads them at the first point: their one block each, the whole array. -/
def xblk (c : Dev nD) : Vec F S10000x128 .f32 := iblk m c 0 t₀
def wblk (c : Dev nD) : Vec F S128x128 .f32 := iblk m c 1 t₀

/-- The band of `adj` the first stream stages at point `t` (rows 256 t …), and the second stream's (rows 5120 + 256 t …),
    filled out to 256 rows past the matrix's end. -/
def aband (c : Dev nD) (t : Fin cfg0.N) : Vec F S256x10000 .f32 := win0_2.fill (grid0.coords t) (fun _ => zf) (iblk m c 2 t)
def bband (c : Dev nD) (t : Fin cfg0.N) : Vec F S256x10000 .f32 := win0_3.fill (grid0.coords t) (fun _ => zf) (iblk m c 3 t)

/-- The support `x · W`, as the body's first-point store writes it. -/
def support (c : Dev nD) : Vec F S10000x128 .f32 := k0_pay1 (xblk m c) (wblk m c)

/-- The kept buffer holding the support, owned whole. -/
abbrev scr : Memref sig .tc .vmem S10000x128 .f32 := Memref.whole cc0_scratch0

/-- What the kept buffer holds before point `n`: anything before the first point, the support afterwards. -/
def keptAt (c : Dev nD) : ℕ → sProp 𝕄
  | 0 => iprop(∃ d, owns (c : Thread nD τ) scr fullShare d)
  | _ + 1 => owns (c : Thread nD τ) scr fullShare (support m c)

/-- Which windows the obligation forgets: the second result's, or none. -/
abbrev fgt (b5 : Bool) : Fin cfg0.W → Bool := fun | 0 => false | 1 => false | 2 => false | 3 => false | 4 => false | 5 => b5 | ⟨_ + 6, h⟩ => absurd h (Nat.not_lt.2 (Nat.le_add_left _ _))

/-- The proof data: the arrays at their launch contents; after the body at point `t` the input buffers hold their blocks
    and the two result buffers the bands times the support; between points the kept buffer holds the support (before
    the first point, anything); `adj` is held half by each band stream. -/
def dats (c : Dev nD) : Dat τ (Elt F) Unit ℕ (UR sig nD τ) ℕ cfg0 c where
  A w := m ((cfg0.win w).arr.view.loc (c : Thread nD τ))
  after w t := match w with
    | ⟨0, _⟩ => xblk m c
    | ⟨1, _⟩ => wblk m c
    | ⟨2, _⟩ => aband m c t
    | ⟨3, _⟩ => bband m c t
    | ⟨4, _⟩ => k0_pay2 (aband m c t) (support m c)
    | ⟨5, _⟩ => k0_pay3 (bband m c t) (support m c)
  Φ t := keptAt m c t.val
  q w := match w with
    | ⟨2, _⟩ => fullShare.left
    | ⟨3, _⟩ => fullShare.right
    | _ => fullShare
  owed _ := 0

/-! ## The kept buffer between points -/

theorem phi_before (c : Dev nD) (t : Fin cfg0.N) : (dats m c).Φ t.castSucc = keptAt m c t.val := rfl
theorem phi_after (c : Dev nD) (t : Fin cfg0.N) : (dats m c).Φ t.succ = owns (c : Thread nD τ) scr fullShare (support m c) := rfl
theorem keptAt_pos (c : Dev nD) (n : ℕ) (h : n ≠ 0) : keptAt m c n = owns (c : Thread nD τ) scr fullShare (support m c) := by
  cases n with
  | zero => exact absurd rfl h
  | succ n => rfl

/-! ## What the body finds in each staging buffer -/

/-- `x`'s and `W`'s windows have one block, fetched at the first point and left in place: at every point the body
    finds it. -/
theorem before_0 (c : Dev nD) (t : Fin cfg0.N) (d) : (dats m c).before 0 t d = xblk m c :=
  ((dats m c).before_in_eq_fetched 0 rfl (fun _ => rfl) (fun _ _ _ => rfl) (fun _ => rfl) t d).trans rfl
theorem before_1 (c : Dev nD) (t : Fin cfg0.N) (d) : (dats m c).before 1 t d = wblk m c :=
  ((dats m c).before_in_eq_fetched 1 rfl (fun _ => rfl) (fun _ _ _ => rfl) (fun _ => rfl) t d).trans rfl

/-- The two band windows are fetched at every point: the body finds the band on the rows inside the matrix and, past its
    end, whatever the buffer held. -/
theorem before_2 (c : Dev nD) (t : Fin cfg0.N) (d) :
    (dats m c).before 2 t d = win0_2.fill (grid0.coords t) d (iblk m c 2 t) := by
  unfold Dat.before; rw [if_pos (fetch0_2 t)]; rfl
theorem before_3 (c : Dev nD) (t : Fin cfg0.N) (d) :
    (dats m c).before 3 t d = win0_3.fill (grid0.coords t) d (iblk m c 3 t) := by
  unfold Dat.before; rw [if_pos (fetch0_3 t)]; rfl

/-- The two result windows are written back at every point: the body finds contents nothing names. -/
theorem before_4 (c : Dev nD) (t : Fin cfg0.N) (d) : (dats m c).before 4 t d = d := by
  unfold Dat.before
  rw [if_neg (show ¬((cfg0.win 4).fetch t = true) from by rw [show (cfg0.win 4).fetch t = false from rfl]; exact Bool.false_ne_true)]
  by_cases h : t.val = 0
  · rw [if_pos h]
  · rw [if_neg h]; exact if_pos (flush0_4 _)
theorem before_5 (c : Dev nD) (t : Fin cfg0.N) (d) : (dats m c).before 5 t d = d := by
  unfold Dat.before
  rw [if_neg (show ¬((cfg0.win 5).fetch t = true) from by rw [show (cfg0.win 5).fetch t = false from rfl]; exact Bool.false_ne_true)]
  by_cases h : t.val = 0
  · rw [if_pos h]
  · rw [if_neg h]; exact if_pos (flush0_5 _)

/-- The first stream's bands (rows 0 … 5119) never reach the matrix's end: its fetch fills the whole buffer. -/
theorem band2_uncut : ∀ (t : Fin cfg0.N) a, (cfg0.win 2).clip (cfg0.grid.coords t) a = none :=
  (by decide +kernel : ∀ (t : Fin grid0.N) (a : Fin 2), win0_2.clip (grid0.coords t) a = none)

theorem aband_eq (c : Dev nD) (t : Fin cfg0.N) (d : Vec F S256x10000 .f32) :
    win0_2.fill (grid0.coords t) d (iblk m c 2 t) = aband m c t :=
  (dats m c).fetched_of_clip_none 2 t (band2_uncut t) d (fun _ => zf)

end Cert.KernelIdeal.Hand

end
-- ==== Proof.BodyRun.lean ====
/-
  The kernel function on whole buffers, for every float instance: one run per branch of its one conditional.

  At the first grid point the function loads `x` and `W` whole, stores their product over the kept buffer, and then
  multiplies each of the two staged bands by what it just stored; at every later point it skips the first step and
  multiplies the bands by what the kept buffer already holds. Every load and store is of a whole buffer, so each
  buffer ends at one payload of the skeleton: the kept buffer at `k0_pay1`, the two results at `k0_pay2` and
  `k0_pay3` of their band and the kept buffer's contents.
-/
import proofs.«171387_g2783138808134_cont_9to1_832_9_alg».proof.Proof.Gen.KernelIdeal.Launch
import proofs.«171387_g2783138808134_cont_9to1_832_9_alg».proof.Proof.Gen.KernelIdeal.Skeleton
import proofs.«171387_g2783138808134_cont_9to1_832_9_alg».proof.Proof.Gen.KernelIdeal.Points
import Idealize.ShloMosaic.Lib.Pipeline.FrameBody
import Idealize.ShloMosaic.Lib.Pipeline.Value
import Idealize.ShloMosaic.Lib.Tactic
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The function's one condition, from the grid coordinates: "this is point 0". -/
abbrev isFirst (i : grid0.Coords) : Prop := (Scalar.cmpi .ne (Scalar.extui (Scalar.cmpi .eq (BitVec.ofNat 32 (i 0).val) 0#32)) 0#32) = 1#1

/-- It holds at the first point and at no other — decided over the grid. -/
theorem isFirst_iff : ∀ t : Fin cfg0.N, isFirst (grid0.coords t) ↔ t.val = 0 :=
  (by decide +kernel : ∀ t : Fin grid0.N, isFirst (grid0.coords t) ↔ t.val = 0)

theorem zero2 : (![0, 0] : Fin 2 → Nat) = fun _ => 0 := funext fun a => by fin_cases a <;> rfl

/-- A store of a whole buffer, read back, is its payload (the one piece tiles the buffer). -/
theorem read_store_256 (v : View sig .tc .vmem S256x128 .f32) (f : v.ty.Contents (Elt F)) (w : Vec F S256x128 .f32) :
    v.read (Elt F) (v.writes (Elt F) f [⟨Rect.unit ![0, 0] S256x128.size Facts₀.inb_S256x128_S256x128_0_0, w⟩]) = w := by
  rw [View.read_writes_eq_canon _ _ _ (View.cover_of_tiledL _ S256x128.size (by sl_kernel_rfl)), View.canon_unit_zero zero2]
theorem read_store_10000 (v : View sig .tc .vmem S10000x128 .f32) (f : v.ty.Contents (Elt F)) (w : Vec F S10000x128 .f32) :
    v.read (Elt F) (v.writes (Elt F) f [⟨Rect.unit ![0, 0] S10000x128.size Facts₀.inb_S10000x128_S10000x128_0_0, w⟩]) = w := by
  rw [View.read_writes_eq_canon _ _ _ (View.cover_of_tiledL _ S10000x128.size (by sl_kernel_rfl)), View.canon_unit_zero zero2]

set_option maxHeartbeats 4000000 in
/-- THE FIRST POINT. The inputs' buffers at `X1 … X4`, the results' and the kept buffer at anything: the function runs
    and leaves the inputs as they were, the kept buffer at `x · W` and each result at its band times that. -/
theorem run_first (c : Dev nD) (i : grid0.Coords) (hi : isFirst i)
    (a1 : Memref sig .tc .vmem S10000x128 .f32) (h1 : a1.IsWhole) (a2 : Memref sig .tc .vmem S128x128 .f32) (h2 : a2.IsWhole)
    (a3 : Memref sig .tc .vmem S256x10000 .f32) (h3 : a3.IsWhole) (a4 : Memref sig .tc .vmem S256x10000 .f32) (h4 : a4.IsWhole)
    (a5 : Memref sig .tc .vmem S256x128 .f32) (h5 : a5.IsWhole) (a6 : Memref sig .tc .vmem S256x128 .f32) (h6 : a6.IsWhole)
    (a7 : Memref sig .tc .vmem S10000x128 .f32) (h7 : a7.IsWhole)
    (X1 : Vec F S10000x128 .f32) (X2 : Vec F S128x128 .f32) (X3 X4 : Vec F S256x10000 .f32)
    (E : Set ℕ) (K : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare (k0_pay2 X3 (k0_pay1 X1 X2))
            ∗ owns (c : Thread nD τ) a6 fullShare (k0_pay3 X4 (k0_pay1 X1 X2)) ∗ owns (c : Thread nD τ) a7 fullShare (k0_pay1 X1 X2)) -∗ K ⟨⟩))
      ⊢ wp frame (wpE (defs₀ (F := F)) Variants.none c none) E (cc0__gcn_kernel i a1 h1 a2 h2 a3 h3 a4 h4 a5 h5 a6 h6 a7 h7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h1.eq_unread hf1; obtain rfl := h2.eq_unread hf2; obtain rfl := h3.eq_unread hf3; obtain rfl := h4.eq_unread hf4
  sl_exec (disch := exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap
    · iexact H5
    · ipureintro
      rw [read_store_256]
      sl_unfold_words
      rw [View.readCov_unit_zero (S := S10000x128) _ zero2]
      simp only [View.readAt_eq_ld, h1.read_unread, h2.read_unread, h3.read_unread, View.ld_unit_zero (S := S10000x128) zero2,
        View.ld_unit_zero (S := S128x128) zero2, View.ld_unit_zero (S := S256x10000) zero2]
  isplitl [H6]
  · iexists _; isplitr
    swap
    · iexact H6
    · ipureintro
      rw [read_store_256]
      sl_unfold_words
      rw [View.readCov_unit_zero (S := S10000x128) _ zero2]
      simp only [View.readAt_eq_ld, h1.read_unread, h2.read_unread, h4.read_unread, View.ld_unit_zero (S := S10000x128) zero2,
        View.ld_unit_zero (S := S128x128) zero2, View.ld_unit_zero (S := S256x10000) zero2]
  · iexists _; isplitr
    swap
    · iexact H7
    · ipureintro
      sl_unfold_words
      rw [read_store_10000]
      simp only [View.readAt_eq_ld, h1.read_unread, h2.read_unread, View.ld_unit_zero (S := S10000x128) zero2,
        View.ld_unit_zero (S := S128x128) zero2]

set_option maxHeartbeats 4000000 in
/-- A LATER POINT. The kept buffer at `S`: the function leaves it and the inputs as they were and each result at its band
    times `S`. -/
theorem run_later (c : Dev nD) (i : grid0.Coords) (hi : ¬isFirst i)
    (a1 : Memref sig .tc .vmem S10000x128 .f32) (h1 : a1.IsWhole) (a2 : Memref sig .tc .vmem S128x128 .f32) (h2 : a2.IsWhole)
    (a3 : Memref sig .tc .vmem S256x10000 .f32) (h3 : a3.IsWhole) (a4 : Memref sig .tc .vmem S256x10000 .f32) (h4 : a4.IsWhole)
    (a5 : Memref sig .tc .vmem S256x128 .f32) (h5 : a5.IsWhole) (a6 : Memref sig .tc .vmem S256x128 .f32) (h6 : a6.IsWhole)
    (a7 : Memref sig .tc .vmem S10000x128 .f32) (h7 : a7.IsWhole)
    (X1 : Vec F S10000x128 .f32) (X2 : Vec F S128x128 .f32) (X3 X4 : Vec F S256x10000 .f32) (S : Vec F S10000x128 .f32)
    (E : Set ℕ) (K : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ (∃ d, owns (c : Thread nD τ) a5 fullShare d) ∗ (∃ d, owns (c : Thread nD τ) a6 fullShare d)
        ∗ owns (c : Thread nD τ) a7 fullShare S
        ∗ (iprop(owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare (k0_pay2 X3 S)
            ∗ owns (c : Thread nD τ) a6 fullShare (k0_pay3 X4 S) ∗ owns (c : Thread nD τ) a7 fullShare S) -∗ K ⟨⟩))
      ⊢ wp frame (wpE (defs₀ (F := F)) Variants.none c none) E (cc0__gcn_kernel i a1 h1 a2 h2 a3 h3 a4 h4 a5 h5 a6 h6 a7 h7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := h1.eq_unread hf1; obtain rfl := h2.eq_unread hf2; obtain rfl := h3.eq_unread hf3; obtain rfl := h4.eq_unread hf4
  obtain rfl := h7.eq_unread hf7
  sl_exec (disch := exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap
    · iexact H5
    · ipureintro
      rw [read_store_256]
      sl_unfold_words
      simp only [View.readAt_eq_ld, h3.read_unread, h7.read_unread, View.ld_unit_zero (S := S10000x128) zero2,
        View.ld_unit_zero (S := S256x10000) zero2]
  isplitl [H6]
  · iexists _; isplitr
    swap
    · iexact H6
    · ipureintro
      rw [read_store_256]
      sl_unfold_words
      simp only [View.readAt_eq_ld, h4.read_unread, h7.read_unread, View.ld_unit_zero (S := S10000x128) zero2,
        View.ld_unit_zero (S := S256x10000) zero2]
  · iexists _; isplitr; · ipureintro; exact h7.read_unread _
    iexact H7

end Cert.KernelIdeal.Hand

end
-- ==== Proof.PointStep.lean ====
/-
  One grid point of the graph-convolution kernel, as the pipeline's loop asks it of the body, for every float instance.

  At point `t` the loop hands the body `x` and `W` (whole), band `t` and band `t + 20` of `adj` — the latter, at the
  last point, only on its 16 rows inside the matrix, the other 240 rows of the buffer being whatever the buffer held —,
  the two result buffers at anything, and the kept buffer at the support (at anything, before the first point). The body
  leaves the inputs in place, the kept buffer at the support, and each result buffer at its band times the support.
  Only the first 16 rows of the second result's last block are written back, and a row of a product depends on the same
  row of the band alone: that fact (`RowLocal`) is a hypothesis here, proved where the instance is the extended reals,
  and not needed where the second result's contents are not named (`b5 = true`).
-/
import proofs.«171387_g2783138808134_cont_9to1_832_9_alg».proof.Proof.Blocks
import proofs.«171387_g2783138808134_cont_9to1_832_9_alg».proof.Proof.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- A row of a band times `S` is that row of the band times `S`: the rows of the product that are written back do not
    depend on the band's rows past the matrix's end. -/
def RowLocal (F : FTy → Type) [FloatOps F] : Prop :=
  ∀ (t : Fin cfg0.N) (d : Vec F S256x10000 .f32) (b : (win0_3.xblock (grid0.coords t)).Idx → Elt F .f32) (S : Vec F S10000x128 .f32),
    win0_5.cut (grid0.coords t) (k0_pay3 (win0_3.fill (grid0.coords t) d b) S)
      = win0_5.cut (grid0.coords t) (k0_pay3 (win0_3.fill (grid0.coords t) (fun _ => zf) b) S)

/-- The body at point `t`, from the buffers as the loop hands them over to the buffers as it takes them back. -/
theorem point_run (c : Dev nD) (t : Fin cfg0.N) (d2 d3 : Vec F S256x10000 .f32) (K : PUnit → sProp 𝕄) :
    iprop(keptAt m c t.val
        ∗ owns (c : Thread nD τ) (st0_0 t) fullShare (xblk m c) ∗ owns (c : Thread nD τ) (st0_1 t) fullShare (wblk m c)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ (∃ d, owns (c : Thread nD τ) (st0_4 t) fullShare d) ∗ (∃ d, owns (c : Thread nD τ) (st0_5 t) fullShare d)
        ∗ (iprop(owns (c : Thread nD τ) scr fullShare (support m c)
            ∗ owns (c : Thread nD τ) (st0_0 t) fullShare (xblk m c) ∗ owns (c : Thread nD τ) (st0_1 t) fullShare (wblk m c)
            ∗ owns (c : Thread nD τ) (st0_2 t) fullShare (aband m c t)
            ∗ owns (c : Thread nD τ) (st0_3 t) fullShare (win0_3.fill (grid0.coords t) d3 (iblk m c 3 t))
            ∗ owns (c : Thread nD τ) (st0_4 t) fullShare (k0_pay2 (aband m c t) (support m c))
            ∗ owns (c : Thread nD τ) (st0_5 t) fullShare (k0_pay3 (win0_3.fill (grid0.coords t) d3 (iblk m c 3 t)) (support m c))) -∗ K ⟨⟩))
      ⊢ wp frame (wpE (defs₀ (F := F)) Variants.none c none) Set.univ (bodyAt0 t) K := by
  rw [aband_eq m c t d2]
  by_cases h : t.val = 0
  · rw [show keptAt m c t.val = iprop(∃ d, owns (c : Thread nD τ) scr fullShare d) from by rw [h]; rfl]
    iintro ⟨Hs, H0, H1, H2, H3, H4, H5, Hk⟩
    iapply (run_first (F := F) c (grid0.coords t) ((isFirst_iff t).mpr h)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      scr (Memref.isWhole_whole _)
      (xblk m c) (wblk m c) (aband m c t) (win0_3.fill (grid0.coords t) d3 (iblk m c 3 t)) Set.univ K)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    unfold support
    isplitl [Hs]; · iexact Hs
    isplitl [H0]; · iexact H0
    isplitl [H1]; · iexact H1
    isplitl [H2]; · iexact H2
    isplitl [H3]; · iexact H3
    isplitl [H4]; · iexact H4
    iexact H5
  · rw [keptAt_pos m c t.val h]
    iintro ⟨Hs, H0, H1, H2, H3, H4, H5, Hk⟩
    iapply (run_later (F := F) c (grid0.coords t) (fun hf => h ((isFirst_iff t).mp hf))
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      scr (Memref.isWhole_whole _)
      (xblk m c) (wblk m c) (aband m c t) (win0_3.fill (grid0.coords t) d3 (iblk m c 3 t)) (support m c) Set.univ K)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    isplitl [Hs]; · iexact Hs
    isplitl [H0]; · iexact H0
    isplitl [H1]; · iexact H1
    isplitl [H2]; · iexact H2
    isplitl [H3]; · iexact H3
    isplitl [H4]; · iexact H4
    iexact H5

/-- THE BODY OBLIGATION of the pipeline's loop, the second result's window forgotten (`b5 = true`) or named
    (`b5 = false`, given that a product's row depends on the band's row alone). -/
theorem body_obligation (b5 : Bool) (hloc : b5 = false → RowLocal F) (c : Dev nD) :
    BodyObligationLoose (dats m c) (defs₀ (F := F)) Variants.none () Set.univ (fgt b5) := fun t => by
  rw [bigSep_W0, bigSep_W0]
  cases b5 with
  | true =>
    simp only
    rw [phi_before, phi_after, show (dats m c).owesAt () t.succ = (dats m c).owesAt () t.castSucc from rfl]
    iintro ⟨HΦ, Ho, ⟨%d0, H0⟩, ⟨%d1, H1⟩, ⟨%d2, H2⟩, ⟨%d3, H3⟩, ⟨%d4, H4⟩, H5⟩
    rw [before_0 m c t d0, before_1 m c t d1, before_2 m c t d2, before_3 m c t d3, before_4 m c t d4]
    iapply (point_run m c t d2 d3 _)
    isplitl [HΦ]; · iexact HΦ
    isplitl [H0]; · iexact H0
    isplitl [H1]; · iexact H1
    isplitl [H2]; · iexact H2
    isplitl [H3]; · iexact H3
    isplitl [H4]; · iexists d4; iexact H4
    isplitl [H5]; · iexact H5
    iintro ⟨Hs, H0, H1, H2, H3, H4, H5⟩
    isplitl [Hs]; · iexact Hs
    isplitl [Ho]; · iexact Ho
    isplitl [H0]; · iexact H0
    isplitl [H1]; · iexact H1
    isplitl [H2]
    · iexists aband m c t
      rw [show win0_2.fill (grid0.coords t) (aband m c t) (win0_2.cut (grid0.coords t) ((dats m c).after 2 t)) = aband m c t
        from win0_2.fill_cut (grid0.coords t) (aband m c t)]
      iexact H2
    isplitl [H3]
    · iexists d3
      rw [show win0_3.cut (grid0.coords t) ((dats m c).after 3 t) = iblk m c 3 t from win0_3.cut_fill _ _ _]
      iexact H3
    isplitl [H4]; · iexact H4
    iexists _; iexact H5
  | false =>
    simp only
    rw [phi_before, phi_after, show (dats m c).owesAt () t.succ = (dats m c).owesAt () t.castSucc from rfl]
    iintro ⟨HΦ, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3, before_4 m c t d4, before_5 m c t d5]
    iapply (point_run m c t d2 d3 _)
    isplitl [HΦ]; · iexact HΦ
    isplitl [H0]; · iexact H0
    isplitl [H1]; · iexact H1
    isplitl [H2]; · iexact H2
    isplitl [H3]; · iexact H3
    isplitl [H4]; · iexists d4; iexact H4
    isplitl [H5]; · iexists d5; iexact H5
    iintro ⟨Hs, H0, H1, H2, H3, H4, H5⟩
    isplitl [Hs]; · iexact Hs
    isplitl [Ho]; · iexact Ho
    isplitl [H0]; · iexact H0
    isplitl [H1]; · iexact H1
    isplitl [H2]
    · iexists aband m c t
      rw [show win0_2.fill (grid0.coords t) (aband m c t) (win0_2.cut (grid0.coords t) ((dats m c).after 2 t)) = aband m c t
        from win0_2.fill_cut (grid0.coords t) (aband m c t)]
      iexact H2
    isplitl [H3]
    · iexists d3
      rw [show win0_3.cut (grid0.coords t) ((dats m c).after 3 t) = iblk m c 3 t from win0_3.cut_fill _ _ _]
      iexact H3
    isplitl [H4]; · iexact H4
    iexists k0_pay3 (win0_3.fill (grid0.coords t) d3 (iblk m c 3 t)) (support m c)
    rw [show win0_5.fill (grid0.coords t) (k0_pay3 (win0_3.fill (grid0.coords t) d3 (iblk m c 3 t)) (support m c))
          (win0_5.cut (grid0.coords t) ((dats m c).after 5 t))
        = k0_pay3 (win0_3.fill (grid0.coords t) d3 (iblk m c 3 t)) (support m c)
      from win0_5.fill_congr_cut (grid0.coords t) (hloc rfl t d3 (iblk m c 3 t) (support m c))]
    iexact H5

end Cert.KernelIdeal.Hand

end
-- ==== Proof.HostTail.lean ====
/-
  The host line after the kernel region: the answer is the two results laid end to end along the node axis.
  Holding the two results' arrays and the answer's whole, the concatenation runs, leaves the results as they were and
  the answer at their concatenation.
-/
import proofs.«171387_g2783138808134_cont_9to1_832_9_alg».proof.Proof.PointStep
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem hostOps1_fresh' : (hostOps1 : List (HloOp τ sig (Elt F))).Forall fun op => op.fresh = ∅ := by
  simp only [List.Forall]; repeat' constructor

/-- The two results' buffers and the answer's, as device buffers. -/
abbrev rA : DevRef τ sig := Proc.devRef .tc main_call0_v0_0
abbrev rB : DevRef τ sig := Proc.devRef .tc main_call0_v0_1
abbrev rY : DevRef τ sig := Proc.devRef .tc main_v0

theorem rA_ne_rB : rA ≠ rB := StableHlo.devRef_ne_of_ne (by decide)
theorem rA_ne_rY : rA ≠ rY := StableHlo.devRef_ne_of_ne (by decide)
theorem rB_ne_rY : rB ≠ rY := StableHlo.devRef_ne_of_ne (by decide)

/-- The contents of the three buffers the concatenation touches, as a valuation. -/
def tailVal (c : Dev nD) (FA : Buf (Elt F) ((c : Thread nD τ).loc main_call0_v0_0)) (FB : Buf (Elt F) ((c : Thread nD τ).loc main_call0_v0_1))
    (v : Buf (Elt F) ((c : Thread nD τ).loc main_v0)) : Valuation τ sig (Elt F) :=
  Function.update (Function.update (Function.update (fun b => m (c, b)) rY v) rB FB) rA FA

theorem tailVal_A (c : Dev nD) (FA FB v) : tailVal m c FA FB v rA = FA := Function.update_self ..
theorem tailVal_B (c : Dev nD) (FA FB v) : tailVal m c FA FB v rB = FB := by
  unfold tailVal; rw [Function.update_of_ne rA_ne_rB.symm, Function.update_self]
theorem tailVal_Y (c : Dev nD) (FA FB v) : tailVal m c FA FB v rY = v := by
  unfold tailVal; rw [Function.update_of_ne rA_ne_rY.symm, Function.update_of_ne rB_ne_rY.symm, Function.update_self]

theorem held3 (c : Dev nD) (W : Valuation τ sig (Elt F)) :
    (StableHlo.held (c : Thread nD τ) ({rA, rB, rY} : Finset (DevRef τ sig)) W : sProp 𝕄)
      = iprop(((c, rA) ↦{fullShare} W rA) ∗ ((c, rB) ↦{fullShare} W rB) ∗ ((c, rY) ↦{fullShare} W rY)) := by
  unfold StableHlo.held
  rw [bigSep_insert (by simp only [Finset.mem_insert, Finset.mem_singleton]; exact fun h => h.elim rA_ne_rB rA_ne_rY),
    bigSep_insert (by simp only [Finset.mem_singleton]; exact rB_ne_rY), bigSep_singleton]
  rfl

/-- After the concatenation the two results hold what they held and the answer their concatenation. -/
theorem tail_after_A (c : Dev nD) (FA FB v) :
    StableHlo.after ([hostOps1 (F := F)].flatten) (tailVal m c FA FB v) rA = FA := by
  simp only [List.flatten_cons, List.flatten_nil, List.append_nil]
  show StableHlo.after hostOps1 _ (Proc.devRef .tc main_call0_v0_0) = _
  after_results
  exact tailVal_A m c FA FB v
theorem tail_after_B (c : Dev nD) (FA FB v) :
    StableHlo.after ([hostOps1 (F := F)].flatten) (tailVal m c FA FB v) rB = FB := by
  simp only [List.flatten_cons, List.flatten_nil, List.append_nil]
  show StableHlo.after hostOps1 _ (Proc.devRef .tc main_call0_v0_1) = _
  after_results
  exact tailVal_B m c FA FB v
theorem tail_after_Y (c : Dev nD) (FA FB v) :
    StableHlo.after ([hostOps1 (F := F)].flatten) (tailVal m c FA FB v) rY
      = concatenate S10000x128 0 [⟨S5120x128, FA⟩, ⟨S4880x128, FB⟩] Facts₀.concatenates_S5120x128_S4880x128_S10000x128_d0 := by
  simp only [List.flatten_cons, List.flatten_nil, List.append_nil]
  show StableHlo.after hostOps1 _ (Proc.devRef .tc main_v0) = _
  after_results
  exact (show _ = concatenate S10000x128 0 [⟨S5120x128, tailVal m c FA FB v rA⟩, ⟨S4880x128, tailVal m c FA FB v rB⟩]
      Facts₀.concatenates_S5120x128_S4880x128_S10000x128_d0 from rfl).trans (by rw [tailVal_A, tailVal_B])

include m in
set_option backward.isDefEq.respectTransparency.types false in
theorem tail_concat (c : Dev nD) (FA : Buf (Elt F) ((c : Thread nD τ).loc main_call0_v0_0)) (FB : Buf (Elt F) ((c : Thread nD τ).loc main_call0_v0_1))
    (v : Buf (Elt F) ((c : Thread nD τ).loc main_v0)) (Q' : PUnit → sProp 𝕄) :
    iprop(boundary (c : Thread nD τ) ∗ (((c : Thread nD τ).loc main_call0_v0_0) ↦{fullShare} FA) ∗ (((c : Thread nD τ).loc main_call0_v0_1) ↦{fullShare} FB)
        ∗ (((c : Thread nD τ).loc main_v0) ↦{fullShare} v)
        ∗ (iprop((((c : Thread nD τ).loc main_call0_v0_0) ↦{fullShare} FA) ∗ (((c : Thread nD τ).loc main_call0_v0_1) ↦{fullShare} FB)
            ∗ (((c : Thread nD τ).loc main_v0) ↦{fullShare}
                concatenate S10000x128 0 [⟨S5120x128, FA⟩, ⟨S4880x128, FB⟩] Facts₀.concatenates_S5120x128_S4880x128_S10000x128_d0)) -∗ Q' ⟨⟩))
      ⊢ wp frame (wpE (Pipeline.defs (fun q => (cfgs q).toPCfg (Val := Elt F)) defs₀) Variants.none.lift (c : Thread nD τ) none) Set.univ
          (Pipeline.chain [StableHlo.seq hostOps1]) Q' := by
  iintro ⟨Hb, HA, HB, HY, Hk⟩
  ihave Hh := (show iprop((((c : Thread nD τ).loc main_call0_v0_0) ↦{fullShare} FA) ∗ (((c : Thread nD τ).loc main_call0_v0_1) ↦{fullShare} FB)
        ∗ (((c : Thread nD τ).loc main_v0) ↦{fullShare} v))
      ⊢ (StableHlo.held (c : Thread nD τ) ({rA, rB, rY} : Finset (DevRef τ sig)) (tailVal m c FA FB v) : sProp 𝕄) from by
        rw [held3, tailVal_A, tailVal_B, tailVal_Y]) $$ [HA HB HY]
  · isplitl [HA]; · iexact HA
    isplitl [HB]; · iexact HB
    iexact HY
  iapply (Pipeline.wp_seqs_then (fun q => (cfgs q).toPCfg (Val := Elt F)) defs₀ Variants.none c ({rA, rB, rY} : Finset (DevRef τ sig)) [] [hostOps1]
    (fun ops hops op hop => by
      simp only [List.mem_cons, List.mem_nil_iff, or_false] at hops; subst hops
      simp only [hostOps1, List.mem_cons, List.mem_nil_iff, or_false] at hop; subst hop
      exact Finset.Subset.refl _)
    (fun ops hops op hop => by
      simp only [List.mem_cons, List.mem_nil_iff, or_false] at hops; subst hops
      exact (List.forall_iff_forall_mem.mp hostOps1_fresh') op hop)
    (tailVal m c FA FB v)) $$ [Hb Hh]
  · isplitl [Hb]; · iexact Hb
    iexact Hh
  iintro ⟨-, Hh⟩
  ihave Hh' := (show (StableHlo.held (c : Thread nD τ) ({rA, rB, rY} : Finset (DevRef τ sig))
        (StableHlo.after [hostOps1].flatten (tailVal m c FA FB v)) : sProp 𝕄)
      ⊢ iprop((((c : Thread nD τ).loc main_call0_v0_0) ↦{fullShare} FA) ∗ (((c : Thread nD τ).loc main_call0_v0_1) ↦{fullShare} FB)
          ∗ (((c : Thread nD τ).loc main_v0) ↦{fullShare}
              concatenate S10000x128 0 [⟨S5120x128, FA⟩, ⟨S4880x128, FB⟩] Facts₀.concatenates_S5120x128_S4880x128_S10000x128_d0)) from by
        rw [held3, tail_after_A, tail_after_B, tail_after_Y]) $$ Hh
  rw [Pipeline.chain_nil, wp_pure]
  imodintro
  iapply Hk
  iexact Hh'

end Cert.KernelIdeal.Hand

end
-- ==== Proof.Run.lean ====
/-
  The run of the graph-convolution program from launch to return, for every float instance.

  @main is the kernel region followed by one host line. The region's launch hands the pipeline the five distinct arrays
  behind its six windows; `adj`, read by both band streams, is split in two halves of its share, one per stream, and
  both halves come back when the region ends (an input array is never written). Of the core's other buffers the kept
  buffer goes to the body's invariant — anything before the first point, the support after every point — and the
  answer's buffer bypasses the region and is written by the host line, the concatenation of the two results.
  The run ends with every window's array at contents its write-backs allow — for a window whose contents are named,
  exactly the contents the proof data computes — and, when the second result is named too, with the answer at the
  concatenation of the two computed results.
-/
import proofs.«171387_g2783138808134_cont_9to1_832_9_alg».proof.Proof.HostTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)
open Idealize.SL.BI (bigSepL bigSep_eq_bigSepL_of_eq bigSepL_cons_cons bigSepL_singleton)

variable (m : (ℓ : Loc nD τ sig) → Buf (Elt F) ℓ) (ρ : Dev nD → PrngReg)

/-- Core `c`'s buffer contents when the region is entered: the launch contents (no host operation precedes it). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- @main is the region followed by the one host operation (the concatenation of the two results). -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall])
    (by simp only [List.Forall]) main_chain

/-- A whole buffer's points-to read against the state: the memory holds its contents. -/
theorem read_one (ℓ : Loc nD τ sig) (v : Buf (Elt F) ℓ) (s' : Phys nD τ sig (Elt F)) :
    iprop((ℓ ↦{fullShare} v) ∗ SI s') ⊢ (iprop(⌜s'.mem.mem ℓ = v⌝ ∗ SI s') : sProp 𝕄) := by
  have h := pointsTo_read_all (Ix := Unit) (Name := ℕ) (U := UR sig nD τ) (Lvl := ℕ) ({()} : Finset Unit) (fun _ => ℓ) (fun _ => v) s'
  rw [bigSep_singleton] at h
  refine h.trans ?_
  iintro ⟨%h', HSI⟩
  isplitr; · ipureintro; exact h' () (Finset.mem_singleton_self _)
  iexact HSI

/-- The proof data read relationally, the second result's window forgotten or not. -/
abbrev rdat (b5 : Bool) (c : Dev nD) : RDat τ (Elt F) Unit ℕ (UR sig nD τ) ℕ cfg0 c := (dats m c).toRForget (fgt b5)

/-- What the run ends with: every window's array at contents its write-backs allow, and — when the second result is
    named — the answer array at the concatenation of the two results. -/
def RunPost (b5 : Bool) : PUnit × MemSt nD τ sig (Elt F) → Prop := fun r =>
  ∀ c : Dev nD, (∀ w : Fin cfg0.W, (rdat m b5 c).ArrAt w cfg0.N (r.2.mem ((cfg0.win w).arr.view.loc (c : Thread nD τ))))
    ∧ (b5 = false → r.2.mem ((c : Thread nD τ).loc main_v0)
        = concatenate S10000x128 0 [⟨S5120x128, (dats m c).arrAt 4 cfg0.N⟩, ⟨S4880x128, (dats m c).arrAt 5 cfg0.N⟩] Facts₀.concatenates_S5120x128_S4880x128_S10000x128_d0)

/-- An input array whose window is named ends as it was launched: it is never written back. -/
theorem input_kept (b5 : Bool) (c : Dev nD) (w : Fin cfg0.W) (hw : fgt b5 w = false) (hin : (cfg0.win w).isOut = false)
    (X : Buf (Elt F) ((cfg0.win w).arr.view.loc (c : Thread nD τ))) (h : (rdat m b5 c).ArrAt w cfg0.N X) :
    X = m ((cfg0.win w).arr.view.loc (c : Thread nD τ)) :=
  (((dats m c).toRForget_arrAt_iff hw cfg0.N X).mp h).trans ((dats m c).arrAt_in w hin _)

set_option backward.isDefEq.respectTransparency.types false in
/-- At the compiled mesh, for any float values, from any memory whose counters are zero: every weakly fair execution of
    @main terminates, nothing faulting, in a state satisfying `RunPost`. -/
theorem run_main (b5 : Bool) (hloc : b5 = false → RowLocal F) :
    θ_run defs (onTc (τ := τ) (main (F := F))) (s₀ m ρ) (RunPost m b5) :=
  Pipeline.RDat.θ_run_region_pf_tail (fun q => (cfgs q).toPCfg (Val := Elt F)) (fun q => (cfgs q).toPCfg_adm)
    (fun _ c => rdat m b5 c) () cellOf_inj (0 : Fin 1) winFacts₀0 (Pipeline.OwnSemFacts.none spec0) (Pipeline.PreFacts.none _)
    emb₁ defs₀ Variants.none m ρ main (fun _ => Pipeline.chain [StableHlo.seq hostOps1])
    (hbody := fun c => (body_obligation m b5 hloc c).toRForget)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => by
      show Pipeline.arrBufs spec0 c (V m c) ⊢ (dats m c).arrays (dats m c).A
      unfold Pipeline.arrBufs Dat.arrays
      rw [bigSep_eq_bigSepL_of_eq [main_arg0, main_arg2, main_arg1, main_call0_v0_0, main_call0_v0_1] (by decide) (by decide), bigSep_W0]
      show iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_call0_v0_0) ↦{fullShare} V m c main_call0_v0_0)
          ∗ (((c : Thread nD τ).loc main_call0_v0_1) ↦{fullShare} V m c main_call0_v0_1)) ⊢ _
      rw [show (dats m c).share 0 = fullShare from rfl, show (dats m c).share 1 = fullShare from rfl,
        show (dats m c).share 2 = fullShare.left from rfl, show (dats m c).share 3 = fullShare.right from rfl,
        show (dats m c).share 4 = fullShare from rfl, show (dats m c).share 5 = fullShare from rfl]
      simp only [View.set_whole]
      iintro ⟨Hx, Hw, Ha, Ho4, Ho5⟩
      ihave Ha' := (pointsTo_share (PosShare.mem_left_op_right fullShare)).1 $$ Ha
      icases Ha' with ⟨Ha2, Ha3⟩
      isplitl [Hx]; · iexact Hx
      isplitl [Hw]; · iexact Hw
      isplitl [Ha2]; · iexact Ha2
      isplitl [Ha3]; · iexact Ha3
      isplitl [Ho4]; · iexact Ho4
      iexact Ho5)
    (hpf := fun _ k => k.elim0)
    (X := fun _ => iprop(emp)) (Y := fun _ => iprop(emp))
    (Z := fun c => iprop(((c : Thread nD τ).loc main_v0) ↦{fullShare} V m c main_v0))
    (Z' := fun c => iprop(∃ v, ⌜b5 = false → v = concatenate S10000x128 0 [⟨S5120x128, (dats m c).arrAt 4 cfg0.N⟩, ⟨S4880x128, (dats m c).arrAt 5 cfg0.N⟩] Facts₀.concatenates_S5120x128_S4880x128_S10000x128_d0⌝
        ∗ ((c : Thread nD τ).loc main_v0) ↦{fullShare} v))
    (hX := fun c => by
      rw [Pipeline.unscopedRestP_none, unscopedRest0_eq]
      iintro ⟨HU, -, -, -, -, -⟩; imodintro
      isplitr; · iempintro
      iexact HU)
    (hin := fun c => by
      rw [scopedRest0_eq]
      show _ ⊢ iprop(∃ d, owns (c : Thread nD τ) scr fullShare d)
      iintro ⟨-, -, ⟨%f, H⟩⟩
      iexists f; rw [owns_whole]; iexact H)
    (hout := fun c => by
      rw [Pipeline.ownSems0_none, scopedRest0_eq]
      show keptAt m c (Fin.last cfg0.N).val ⊢ _
      rw [keptAt_pos m c _ (by decide), owns_whole]
      iintro H; isplitr; · iempintro
      isplitr; · iempintro
      iexists _; iexact H)
    (htail := fun c Q' => by
      show iprop((iprop((rdat m b5 c).arraysAt cfg0.N ∗ _) -∗ Q' ⟨⟩) ∗ boundary _ ∗ (rdat m b5 c).arraysAt cfg0.N ∗ _) ⊢ _
      unfold RDat.arraysAt
      rw [bigSep_W0]
      rw [show (rdat m b5 c).share 0 = fullShare from rfl, show (rdat m b5 c).share 1 = fullShare from rfl,
        show (rdat m b5 c).share 2 = fullShare.left from rfl, show (rdat m b5 c).share 3 = fullShare.right from rfl,
        show (rdat m b5 c).share 4 = fullShare from rfl, show (rdat m b5 c).share 5 = fullShare from rfl]
      simp only [View.set_whole]
      iintro ⟨Hk, Hb, ⟨⟨%F0, %h0, H0⟩, ⟨%F1, %h1, H1⟩, ⟨%F2, %h2, H2⟩, ⟨%F3, %h3, H3⟩, ⟨%F4, %h4, H4⟩, ⟨%F5, %h5, H5⟩⟩, HZ⟩
      iapply (tail_concat m c F4 F5 (V m c main_v0) Q')
      isplitl [Hb]; · iexact Hb
      isplitl [H4]; · iexact H4
      isplitl [H5]; · iexact H5
      isplitl [HZ]; · iexact HZ
      iintro ⟨H4, H5, HY⟩
      iapply Hk
      isplitl [H0 H1 H2 H3 H4 H5]
      · isplitl [H0]
        · iexists F0; isplitr; · ipureintro; exact h0
          iexact H0
        isplitl [H1]
        · iexists F1; isplitr; · ipureintro; exact h1
          iexact H1
        isplitl [H2]
        · iexists F2; isplitr; · ipureintro; exact h2
          iexact H2
        isplitl [H3]
        · iexists F3; isplitr; · ipureintro; exact h3
          iexact H3
        isplitl [H4]
        · iexists F4; isplitr; · ipureintro; exact h4
          iexact H4
        · iexists F5; isplitr; · ipureintro; exact h5
          iexact H5
      · iexists _; isplitr
        swap
        · iexact HY
        · ipureintro
          intro hb; subst hb
          rw [((dats m c).toRForget_arrAt_iff (fgt := fgt false) (w := 4) rfl cfg0.N F4).mp h4,
            ((dats m c).toRForget_arrAt_iff (fgt := fgt false) (w := 5) rfl cfg0.N F5).mp h5])
    (QY := fun c s => b5 = false → s.mem ((c : Thread nD τ).loc main_v0)
        = concatenate S10000x128 0 [⟨S5120x128, (dats m c).arrAt 4 cfg0.N⟩, ⟨S4880x128, (dats m c).arrAt 5 cfg0.N⟩] Facts₀.concatenates_S5120x128_S4880x128_S10000x128_d0)
    (hY := fun c s' => by
      iintro ⟨-, ⟨%v, %hv, HZ⟩, HSI⟩
      ihave H := (pointsTo_read_all ({()} : Finset Unit) (fun _ => (c : Thread nD τ).loc main_v0) (fun _ => v) s') $$ [HZ HSI]
      · rw [bigSep_singleton]; isplitl [HZ] <;> iassumption
      icases H with ⟨%h, HSI⟩
      imodintro
      isplitr
      · ipureintro; intro hb; rw [h () (Finset.mem_singleton_self _)]; exact hv hb
      · iexact HSI)
    (hQ := fun s h c => ⟨(h c).1, (h c).2.2⟩)

end Cert.KernelIdeal.Hand

end
-- ==== Proof.WordLevel.Blocks.lean ====
/-
  The blocks the graph-convolution kernel sees and what it leaves, for every float instance.

  The kernel computes `adj · (x · W)` over a grid of twenty points. The product `x · W` (the "support", 10000 × 128) is
  computed once, at the first point, into a buffer the kernel keeps between points; every point then multiplies TWO
  256-row bands of `adj` — band `t` (rows 256 t …) and band `t + 20` (rows 5120 + 256 t …) — by the support and
  writes the two 256 × 128 products to the two results (rows 0 … 5119 and rows 5120 … 9999 of the answer). The adjacency
  matrix is handed to the kernel twice, once per band stream, so two windows read one array. Band 39 overhangs the
  matrix (10000 = 39 · 256 + 16): only its first 16 rows exist, and only the first 16 rows of the last block of the
  second result are written back.

  This module fixes, per window and point, the contents named for each staging buffer after the body (`dats`), and
  proves what the body finds in each buffer when it runs (`before_*`).
-/
import proofs.«171387_g2783138808134_cont_9to1_832_9_alg».proof.Proof.Gen.Kernel.Launch
import proofs.«171387_g2783138808134_cont_9to1_832_9_alg».proof.Proof.Gen.Kernel.Skeleton
import proofs.«171387_g2783138808134_cont_9to1_832_9_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The first grid point. -/
abbrev t₀ : Fin cfg0.N := ⟨0, by decide⟩

/-- Window `w`'s block of its array at point `t`: the part of the block inside the array, read off the launch
    contents. -/
def iblk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The word that fills a band's staging rows past the matrix's end in the named contents (nothing reads it). -/
abbrev zf : Elt F .f32 := Scalar.ofBits .f32 0#32

/-- `x` and `W` as the kernel loads them at the first point: their one block each, the whole array. -/
def xblk (c : Dev nD) : Vec F S10000x128 .f32 := iblk m c 0 t₀
def wblk (c : Dev nD) : Vec F S128x128 .f32 := iblk m c 1 t₀

/-- The band of `adj` the first stream stages at point `t` (rows 256 t …), and the second stream's (rows 5120 + 256 t …),
    filled out to 256 rows past the matrix's end. -/
def aband (c : Dev nD) (t : Fin cfg0.N) : Vec F S256x10000 .f32 := win0_2.fill (grid0.coords t) (fun _ => zf) (iblk m c 2 t)
def bband (c : Dev nD) (t : Fin cfg0.N) : Vec F S256x10000 .f32 := win0_3.fill (grid0.coords t) (fun _ => zf) (iblk m c 3 t)

/-- The support `x · W`, as the body's first-point store writes it. -/
def support (c : Dev nD) : Vec F S10000x128 .f32 := k0_pay1 (xblk m c) (wblk m c)

/-- The kept buffer holding the support, owned whole. -/
abbrev scr : Memref sig .tc .vmem S10000x128 .f32 := Memref.whole cc0_scratch0

/-- What the kept buffer holds before point `n`: anything before the first point, the support afterwards. -/
def keptAt (c : Dev nD) : ℕ → sProp 𝕄
  | 0 => iprop(∃ d, owns (c : Thread nD τ) scr fullShare d)
  | _ + 1 => owns (c : Thread nD τ) scr fullShare (support m c)

/-- Which windows the obligation forgets: the second result's, or none. -/
abbrev fgt (b5 : Bool) : Fin cfg0.W → Bool := fun | 0 => false | 1 => false | 2 => false | 3 => false | 4 => false | 5 => b5 | ⟨_ + 6, h⟩ => absurd h (Nat.not_lt.2 (Nat.le_add_left _ _))

/-- The proof data: the arrays at their launch contents; after the body at point `t` the input buffers hold their blocks
    and the two result buffers the bands times the support; between points the kept buffer holds the support (before
    the first point, anything); `adj` is held half by each band stream. -/
def dats (c : Dev nD) : Dat τ (Elt F) Unit ℕ (UR sig nD τ) ℕ cfg0 c where
  A w := m ((cfg0.win w).arr.view.loc (c : Thread nD τ))
  after w t := match w with
    | ⟨0, _⟩ => xblk m c
    | ⟨1, _⟩ => wblk m c
    | ⟨2, _⟩ => aband m c t
    | ⟨3, _⟩ => bband m c t
    | ⟨4, _⟩ => k0_pay2 (aband m c t) (support m c)
    | ⟨5, _⟩ => k0_pay3 (bband m c t) (support m c)
  Φ t := keptAt m c t.val
  q w := match w with
    | ⟨2, _⟩ => fullShare.left
    | ⟨3, _⟩ => fullShare.right
    | _ => fullShare
  owed _ := 0

/-! ## The kept buffer between points -/

theorem phi_before (c : Dev nD) (t : Fin cfg0.N) : (dats m c).Φ t.castSucc = keptAt m c t.val := rfl
theorem phi_after (c : Dev nD) (t : Fin cfg0.N) : (dats m c).Φ t.succ = owns (c : Thread nD τ) scr fullShare (support m c) := rfl
theorem keptAt_pos (c : Dev nD) (n : ℕ) (h : n ≠ 0) : keptAt m c n = owns (c : Thread nD τ) scr fullShare (support m c) := by
  cases n with
  | zero => exact absurd rfl h
  | succ n => rfl

/-! ## What the body finds in each staging buffer -/

/-- `x`'s and `W`'s windows have one block, fetched at the first point and left in place: at every point the body
    finds it. -/
theorem before_0 (c : Dev nD) (t : Fin cfg0.N) (d) : (dats m c).before 0 t d = xblk m c :=
  ((dats m c).before_in_eq_fetched 0 rfl (fun _ => rfl) (fun _ _ _ => rfl) (fun _ => rfl) t d).trans rfl
theorem before_1 (c : Dev nD) (t : Fin cfg0.N) (d) : (dats m c).before 1 t d = wblk m c :=
  ((dats m c).before_in_eq_fetched 1 rfl (fun _ => rfl) (fun _ _ _ => rfl) (fun _ => rfl) t d).trans rfl

/-- The two band windows are fetched at every point: the body finds the band on the rows inside the matrix and, past its
    end, whatever the buffer held. -/
theorem before_2 (c : Dev nD) (t : Fin cfg0.N) (d) :
    (dats m c).before 2 t d = win0_2.fill (grid0.coords t) d (iblk m c 2 t) := by
  unfold Dat.before; rw [if_pos (fetch0_2 t)]; rfl
theorem before_3 (c : Dev nD) (t : Fin cfg0.N) (d) :
    (dats m c).before 3 t d = win0_3.fill (grid0.coords t) d (iblk m c 3 t) := by
  unfold Dat.before; rw [if_pos (fetch0_3 t)]; rfl

/-- The two result windows are written back at every point: the body finds contents nothing names. -/
theorem before_4 (c : Dev nD) (t : Fin cfg0.N) (d) : (dats m c).before 4 t d = d := by
  unfold Dat.before
  rw [if_neg (show ¬((cfg0.win 4).fetch t = true) from by rw [show (cfg0.win 4).fetch t = false from rfl]; exact Bool.false_ne_true)]
  by_cases h : t.val = 0
  · rw [if_pos h]
  · rw [if_neg h]; exact if_pos (flush0_4 _)
theorem before_5 (c : Dev nD) (t : Fin cfg0.N) (d) : (dats m c).before 5 t d = d := by
  unfold Dat.before
  rw [if_neg (show ¬((cfg0.win 5).fetch t = true) from by rw [show (cfg0.win 5).fetch t = false from rfl]; exact Bool.false_ne_true)]
  by_cases h : t.val = 0
  · rw [if_pos h]
  · rw [if_neg h]; exact if_pos (flush0_5 _)

/-- The first stream's bands (rows 0 … 5119) never reach the matrix's end: its fetch fills the whole buffer. -/
theorem band2_uncut : ∀ (t : Fin cfg0.N) a, (cfg0.win 2).clip (cfg0.grid.coords t) a = none :=
  (by decide +kernel : ∀ (t : Fin grid0.N) (a : Fin 2), win0_2.clip (grid0.coords t) a = none)

theorem aband_eq (c : Dev nD) (t : Fin cfg0.N) (d : Vec F S256x10000 .f32) :
    win0_2.fill (grid0.coords t) d (iblk m c 2 t) = aband m c t :=
  (dats m c).fetched_of_clip_none 2 t (band2_uncut t) d (fun _ => zf)

end Cert.Kernel.Hand

end
-- ==== Proof.WordLevel.BodyRun.lean ====
/-
  The kernel function on whole buffers, for every float instance: one run per branch of its one conditional.

  At the first grid point the function loads `x` and `W` whole, stores their product over the kept buffer, and then
  multiplies each of the two staged bands by what it just stored; at every later point it skips the first step and
  multiplies the bands by what the kept buffer already holds. Every load and store is of a whole buffer, so each
  buffer ends at one payload of the skeleton: the kept buffer at `k0_pay1`, the two results at `k0_pay2` and
  `k0_pay3` of their band and the kept buffer's contents.
-/
import proofs.«171387_g2783138808134_cont_9to1_832_9_alg».proof.Proof.Gen.Kernel.Launch
import proofs.«171387_g2783138808134_cont_9to1_832_9_alg».proof.Proof.Gen.Kernel.Skeleton
import proofs.«171387_g2783138808134_cont_9to1_832_9_alg».proof.Proof.Gen.Kernel.Points
import Idealize.ShloMosaic.Lib.Pipeline.FrameBody
import Idealize.ShloMosaic.Lib.Pipeline.Value
import Idealize.ShloMosaic.Lib.Tactic
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The function's one condition, from the grid coordinates: "this is point 0". -/
abbrev isFirst (i : grid0.Coords) : Prop := (Scalar.cmpi .ne (Scalar.extui (Scalar.cmpi .eq (BitVec.ofNat 32 (i 0).val) 0#32)) 0#32) = 1#1

/-- It holds at the first point and at no other — decided over the grid. -/
theorem isFirst_iff : ∀ t : Fin cfg0.N, isFirst (grid0.coords t) ↔ t.val = 0 :=
  (by decide +kernel : ∀ t : Fin grid0.N, isFirst (grid0.coords t) ↔ t.val = 0)

theorem zero2 : (![0, 0] : Fin 2 → Nat) = fun _ => 0 := funext fun a => by fin_cases a <;> rfl

/-- A store of a whole buffer, read back, is its payload (the one piece tiles the buffer). -/
theorem read_store_256 (v : View sig .tc .vmem S256x128 .f32) (f : v.ty.Contents (Elt F)) (w : Vec F S256x128 .f32) :
    v.read (Elt F) (v.writes (Elt F) f [⟨Rect.unit ![0, 0] S256x128.size Facts₀.inb_S256x128_S256x128_0_0, w⟩]) = w := by
  rw [View.read_writes_eq_canon _ _ _ (View.cover_of_tiledL _ S256x128.size (by sl_kernel_rfl)), View.canon_unit_zero zero2]
theorem read_store_10000 (v : View sig .tc .vmem S10000x128 .f32) (f : v.ty.Contents (Elt F)) (w : Vec F S10000x128 .f32) :
    v.read (Elt F) (v.writes (Elt F) f [⟨Rect.unit ![0, 0] S10000x128.size Facts₀.inb_S10000x128_S10000x128_0_0, w⟩]) = w := by
  rw [View.read_writes_eq_canon _ _ _ (View.cover_of_tiledL _ S10000x128.size (by sl_kernel_rfl)), View.canon_unit_zero zero2]

set_option maxHeartbeats 4000000 in
/-- THE FIRST POINT. The inputs' buffers at `X1 … X4`, the results' and the kept buffer at anything: the function runs
    and leaves the inputs as they were, the kept buffer at `x · W` and each result at its band times that. -/
theorem run_first (c : Dev nD) (i : grid0.Coords) (hi : isFirst i)
    (a1 : Memref sig .tc .vmem S10000x128 .f32) (h1 : a1.IsWhole) (a2 : Memref sig .tc .vmem S128x128 .f32) (h2 : a2.IsWhole)
    (a3 : Memref sig .tc .vmem S256x10000 .f32) (h3 : a3.IsWhole) (a4 : Memref sig .tc .vmem S256x10000 .f32) (h4 : a4.IsWhole)
    (a5 : Memref sig .tc .vmem S256x128 .f32) (h5 : a5.IsWhole) (a6 : Memref sig .tc .vmem S256x128 .f32) (h6 : a6.IsWhole)
    (a7 : Memref sig .tc .vmem S10000x128 .f32) (h7 : a7.IsWhole)
    (X1 : Vec F S10000x128 .f32) (X2 : Vec F S128x128 .f32) (X3 X4 : Vec F S256x10000 .f32)
    (E : Set ℕ) (K : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare (k0_pay2 X3 (k0_pay1 X1 X2))
            ∗ owns (c : Thread nD τ) a6 fullShare (k0_pay3 X4 (k0_pay1 X1 X2)) ∗ owns (c : Thread nD τ) a7 fullShare (k0_pay1 X1 X2)) -∗ K ⟨⟩))
      ⊢ wp frame (wpE (defs₀ (F := F)) Variants.none c none) E (cc0__gcn_kernel i a1 h1 a2 h2 a3 h3 a4 h4 a5 h5 a6 h6 a7 h7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h1.eq_unread hf1; obtain rfl := h2.eq_unread hf2; obtain rfl := h3.eq_unread hf3; obtain rfl := h4.eq_unread hf4
  sl_exec (disch := exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap
    · iexact H5
    · ipureintro
      rw [read_store_256]
      sl_unfold_words
      rw [View.readCov_unit_zero (S := S10000x128) _ zero2]
      simp only [View.readAt_eq_ld, h1.read_unread, h2.read_unread, h3.read_unread, View.ld_unit_zero (S := S10000x128) zero2,
        View.ld_unit_zero (S := S128x128) zero2, View.ld_unit_zero (S := S256x10000) zero2]
  isplitl [H6]
  · iexists _; isplitr
    swap
    · iexact H6
    · ipureintro
      rw [read_store_256]
      sl_unfold_words
      rw [View.readCov_unit_zero (S := S10000x128) _ zero2]
      simp only [View.readAt_eq_ld, h1.read_unread, h2.read_unread, h4.read_unread, View.ld_unit_zero (S := S10000x128) zero2,
        View.ld_unit_zero (S := S128x128) zero2, View.ld_unit_zero (S := S256x10000) zero2]
  · iexists _; isplitr
    swap
    · iexact H7
    · ipureintro
      sl_unfold_words
      rw [read_store_10000]
      simp only [View.readAt_eq_ld, h1.read_unread, h2.read_unread, View.ld_unit_zero (S := S10000x128) zero2,
        View.ld_unit_zero (S := S128x128) zero2]

set_option maxHeartbeats 4000000 in
/-- A LATER POINT. The kept buffer at `S`: the function leaves it and the inputs as they were and each result at its band
    times `S`. -/
theorem run_later (c : Dev nD) (i : grid0.Coords) (hi : ¬isFirst i)
    (a1 : Memref sig .tc .vmem S10000x128 .f32) (h1 : a1.IsWhole) (a2 : Memref sig .tc .vmem S128x128 .f32) (h2 : a2.IsWhole)
    (a3 : Memref sig .tc .vmem S256x10000 .f32) (h3 : a3.IsWhole) (a4 : Memref sig .tc .vmem S256x10000 .f32) (h4 : a4.IsWhole)
    (a5 : Memref sig .tc .vmem S256x128 .f32) (h5 : a5.IsWhole) (a6 : Memref sig .tc .vmem S256x128 .f32) (h6 : a6.IsWhole)
    (a7 : Memref sig .tc .vmem S10000x128 .f32) (h7 : a7.IsWhole)
    (X1 : Vec F S10000x128 .f32) (X2 : Vec F S128x128 .f32) (X3 X4 : Vec F S256x10000 .f32) (S : Vec F S10000x128 .f32)
    (E : Set ℕ) (K : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ (∃ d, owns (c : Thread nD τ) a5 fullShare d) ∗ (∃ d, owns (c : Thread nD τ) a6 fullShare d)
        ∗ owns (c : Thread nD τ) a7 fullShare S
        ∗ (iprop(owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare (k0_pay2 X3 S)
            ∗ owns (c : Thread nD τ) a6 fullShare (k0_pay3 X4 S) ∗ owns (c : Thread nD τ) a7 fullShare S) -∗ K ⟨⟩))
      ⊢ wp frame (wpE (defs₀ (F := F)) Variants.none c none) E (cc0__gcn_kernel i a1 h1 a2 h2 a3 h3 a4 h4 a5 h5 a6 h6 a7 h7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := h1.eq_unread hf1; obtain rfl := h2.eq_unread hf2; obtain rfl := h3.eq_unread hf3; obtain rfl := h4.eq_unread hf4
  obtain rfl := h7.eq_unread hf7
  sl_exec (disch := exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap
    · iexact H5
    · ipureintro
      rw [read_store_256]
      sl_unfold_words
      simp only [View.readAt_eq_ld, h3.read_unread, h7.read_unread, View.ld_unit_zero (S := S10000x128) zero2,
        View.ld_unit_zero (S := S256x10000) zero2]
  isplitl [H6]
  · iexists _; isplitr
    swap
    · iexact H6
    · ipureintro
      rw [read_store_256]
      sl_unfold_words
      simp only [View.readAt_eq_ld, h4.read_unread, h7.read_unread, View.ld_unit_zero (S := S10000x128) zero2,
        View.ld_unit_zero (S := S256x10000) zero2]
  · iexists _; isplitr; · ipureintro; exact h7.read_unread _
    iexact H7

end Cert.Kernel.Hand

end
-- ==== Proof.WordLevel.PointStep.lean ====
/-
  One grid point of the graph-convolution kernel, as the pipeline's loop asks it of the body, for every float instance.

  At point `t` the loop hands the body `x` and `W` (whole), band `t` and band `t + 20` of `adj` — the latter, at the
  last point, only on its 16 rows inside the matrix, the other 240 rows of the buffer being whatever the buffer held —,
  the two result buffers at anything, and the kept buffer at the support (at anything, before the first point). The body
  leaves the inputs in place, the kept buffer at the support, and each result buffer at its band times the support.
  Only the first 16 rows of the second result's last block are written back, and a row of a product depends on the same
  row of the band alone: that fact (`RowLocal`) is a hypothesis here, proved where the instance is the extended reals,
  and not needed where the second result's contents are not named (`b5 = true`).
-/
import proofs.«171387_g2783138808134_cont_9to1_832_9_alg».proof.Proof.WordLevel.Blocks
import proofs.«171387_g2783138808134_cont_9to1_832_9_alg».proof.Proof.WordLevel.BodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- A row of a band times `S` is that row of the band times `S`: the rows of the product that are written back do not
    depend on the band's rows past the matrix's end. -/
def RowLocal (F : FTy → Type) [FloatOps F] : Prop :=
  ∀ (t : Fin cfg0.N) (d : Vec F S256x10000 .f32) (b : (win0_3.xblock (grid0.coords t)).Idx → Elt F .f32) (S : Vec F S10000x128 .f32),
    win0_5.cut (grid0.coords t) (k0_pay3 (win0_3.fill (grid0.coords t) d b) S)
      = win0_5.cut (grid0.coords t) (k0_pay3 (win0_3.fill (grid0.coords t) (fun _ => zf) b) S)

/-- The body at point `t`, from the buffers as the loop hands them over to the buffers as it takes them back. -/
theorem point_run (c : Dev nD) (t : Fin cfg0.N) (d2 d3 : Vec F S256x10000 .f32) (K : PUnit → sProp 𝕄) :
    iprop(keptAt m c t.val
        ∗ owns (c : Thread nD τ) (st0_0 t) fullShare (xblk m c) ∗ owns (c : Thread nD τ) (st0_1 t) fullShare (wblk m c)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ (∃ d, owns (c : Thread nD τ) (st0_4 t) fullShare d) ∗ (∃ d, owns (c : Thread nD τ) (st0_5 t) fullShare d)
        ∗ (iprop(owns (c : Thread nD τ) scr fullShare (support m c)
            ∗ owns (c : Thread nD τ) (st0_0 t) fullShare (xblk m c) ∗ owns (c : Thread nD τ) (st0_1 t) fullShare (wblk m c)
            ∗ owns (c : Thread nD τ) (st0_2 t) fullShare (aband m c t)
            ∗ owns (c : Thread nD τ) (st0_3 t) fullShare (win0_3.fill (grid0.coords t) d3 (iblk m c 3 t))
            ∗ owns (c : Thread nD τ) (st0_4 t) fullShare (k0_pay2 (aband m c t) (support m c))
            ∗ owns (c : Thread nD τ) (st0_5 t) fullShare (k0_pay3 (win0_3.fill (grid0.coords t) d3 (iblk m c 3 t)) (support m c))) -∗ K ⟨⟩))
      ⊢ wp frame (wpE (defs₀ (F := F)) Variants.none c none) Set.univ (bodyAt0 t) K := by
  rw [aband_eq m c t d2]
  by_cases h : t.val = 0
  · rw [show keptAt m c t.val = iprop(∃ d, owns (c : Thread nD τ) scr fullShare d) from by rw [h]; rfl]
    iintro ⟨Hs, H0, H1, H2, H3, H4, H5, Hk⟩
    iapply (run_first (F := F) c (grid0.coords t) ((isFirst_iff t).mpr h)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      scr (Memref.isWhole_whole _)
      (xblk m c) (wblk m c) (aband m c t) (win0_3.fill (grid0.coords t) d3 (iblk m c 3 t)) Set.univ K)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    unfold support
    isplitl [Hs]; · iexact Hs
    isplitl [H0]; · iexact H0
    isplitl [H1]; · iexact H1
    isplitl [H2]; · iexact H2
    isplitl [H3]; · iexact H3
    isplitl [H4]; · iexact H4
    iexact H5
  · rw [keptAt_pos m c t.val h]
    iintro ⟨Hs, H0, H1, H2, H3, H4, H5, Hk⟩
    iapply (run_later (F := F) c (grid0.coords t) (fun hf => h ((isFirst_iff t).mp hf))
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      scr (Memref.isWhole_whole _)
      (xblk m c) (wblk m c) (aband m c t) (win0_3.fill (grid0.coords t) d3 (iblk m c 3 t)) (support m c) Set.univ K)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    iapply Hk
    isplitl [Hs]; · iexact Hs
    isplitl [H0]; · iexact H0
    isplitl [H1]; · iexact H1
    isplitl [H2]; · iexact H2
    isplitl [H3]; · iexact H3
    isplitl [H4]; · iexact H4
    iexact H5

/-- THE BODY OBLIGATION of the pipeline's loop, the second result's window forgotten (`b5 = true`) or named
    (`b5 = false`, given that a product's row depends on the band's row alone). -/
theorem body_obligation (b5 : Bool) (hloc : b5 = false → RowLocal F) (c : Dev nD) :
    BodyObligationLoose (dats m c) (defs₀ (F := F)) Variants.none () Set.univ (fgt b5) := fun t => by
  rw [bigSep_W0, bigSep_W0]
  cases b5 with
  | true =>
    simp only
    rw [phi_before, phi_after, show (dats m c).owesAt () t.succ = (dats m c).owesAt () t.castSucc from rfl]
    iintro ⟨HΦ, Ho, ⟨%d0, H0⟩, ⟨%d1, H1⟩, ⟨%d2, H2⟩, ⟨%d3, H3⟩, ⟨%d4, H4⟩, H5⟩
    rw [before_0 m c t d0, before_1 m c t d1, before_2 m c t d2, before_3 m c t d3, before_4 m c t d4]
    iapply (point_run m c t d2 d3 _)
    isplitl [HΦ]; · iexact HΦ
    isplitl [H0]; · iexact H0
    isplitl [H1]; · iexact H1
    isplitl [H2]; · iexact H2
    isplitl [H3]; · iexact H3
    isplitl [H4]; · iexists d4; iexact H4
    isplitl [H5]; · iexact H5
    iintro ⟨Hs, H0, H1, H2, H3, H4, H5⟩
    isplitl [Hs]; · iexact Hs
    isplitl [Ho]; · iexact Ho
    isplitl [H0]; · iexact H0
    isplitl [H1]; · iexact H1
    isplitl [H2]
    · iexists aband m c t
      rw [show win0_2.fill (grid0.coords t) (aband m c t) (win0_2.cut (grid0.coords t) ((dats m c).after 2 t)) = aband m c t
        from win0_2.fill_cut (grid0.coords t) (aband m c t)]
      iexact H2
    isplitl [H3]
    · iexists d3
      rw [show win0_3.cut (grid0.coords t) ((dats m c).after 3 t) = iblk m c 3 t from win0_3.cut_fill _ _ _]
      iexact H3
    isplitl [H4]; · iexact H4
    iexists _; iexact H5
  | false =>
    simp only
    rw [phi_before, phi_after, show (dats m c).owesAt () t.succ = (dats m c).owesAt () t.castSucc from rfl]
    iintro ⟨HΦ, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3, before_4 m c t d4, before_5 m c t d5]
    iapply (point_run m c t d2 d3 _)
    isplitl [HΦ]; · iexact HΦ
    isplitl [H0]; · iexact H0
    isplitl [H1]; · iexact H1
    isplitl [H2]; · iexact H2
    isplitl [H3]; · iexact H3
    isplitl [H4]; · iexists d4; iexact H4
    isplitl [H5]; · iexists d5; iexact H5
    iintro ⟨Hs, H0, H1, H2, H3, H4, H5⟩
    isplitl [Hs]; · iexact Hs
    isplitl [Ho]; · iexact Ho
    isplitl [H0]; · iexact H0
    isplitl [H1]; · iexact H1
    isplitl [H2]
    · iexists aband m c t
      rw [show win0_2.fill (grid0.coords t) (aband m c t) (win0_2.cut (grid0.coords t) ((dats m c).after 2 t)) = aband m c t
        from win0_2.fill_cut (grid0.coords t) (aband m c t)]
      iexact H2
    isplitl [H3]
    · iexists d3
      rw [show win0_3.cut (grid0.coords t) ((dats m c).after 3 t) = iblk m c 3 t from win0_3.cut_fill _ _ _]
      iexact H3
    isplitl [H4]; · iexact H4
    iexists k0_pay3 (win0_3.fill (grid0.coords t) d3 (iblk m c 3 t)) (support m c)
    rw [show win0_5.fill (grid0.coords t) (k0_pay3 (win0_3.fill (grid0.coords t) d3 (iblk m c 3 t)) (support m c))
          (win0_5.cut (grid0.coords t) ((dats m c).after 5 t))
        = k0_pay3 (win0_3.fill (grid0.coords t) d3 (iblk m c 3 t)) (support m c)
      from win0_5.fill_congr_cut (grid0.coords t) (hloc rfl t d3 (iblk m c 3 t) (support m c))]
    iexact H5

end Cert.Kernel.Hand

end
-- ==== Proof.WordLevel.HostTail.lean ====
/-
  The host line after the kernel region: the answer is the two results laid end to end along the node axis.
  Holding the two results' arrays and the answer's whole, the concatenation runs, leaves the results as they were and
  the answer at their concatenation.
-/
import proofs.«171387_g2783138808134_cont_9to1_832_9_alg».proof.Proof.WordLevel.PointStep
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem hostOps1_fresh' : (hostOps1 : List (HloOp τ sig (Elt F))).Forall fun op => op.fresh = ∅ := by
  simp only [List.Forall]; repeat' constructor

/-- The two results' buffers and the answer's, as device buffers. -/
abbrev rA : DevRef τ sig := Proc.devRef .tc main_call0_v0_0
abbrev rB : DevRef τ sig := Proc.devRef .tc main_call0_v0_1
abbrev rY : DevRef τ sig := Proc.devRef .tc main_v0

theorem rA_ne_rB : rA ≠ rB := StableHlo.devRef_ne_of_ne (by decide)
theorem rA_ne_rY : rA ≠ rY := StableHlo.devRef_ne_of_ne (by decide)
theorem rB_ne_rY : rB ≠ rY := StableHlo.devRef_ne_of_ne (by decide)

/-- The contents of the three buffers the concatenation touches, as a valuation. -/
def tailVal (c : Dev nD) (FA : Buf (Elt F) ((c : Thread nD τ).loc main_call0_v0_0)) (FB : Buf (Elt F) ((c : Thread nD τ).loc main_call0_v0_1))
    (v : Buf (Elt F) ((c : Thread nD τ).loc main_v0)) : Valuation τ sig (Elt F) :=
  Function.update (Function.update (Function.update (fun b => m (c, b)) rY v) rB FB) rA FA

theorem tailVal_A (c : Dev nD) (FA FB v) : tailVal m c FA FB v rA = FA := Function.update_self ..
theorem tailVal_B (c : Dev nD) (FA FB v) : tailVal m c FA FB v rB = FB := by
  unfold tailVal; rw [Function.update_of_ne rA_ne_rB.symm, Function.update_self]
theorem tailVal_Y (c : Dev nD) (FA FB v) : tailVal m c FA FB v rY = v := by
  unfold tailVal; rw [Function.update_of_ne rA_ne_rY.symm, Function.update_of_ne rB_ne_rY.symm, Function.update_self]

theorem held3 (c : Dev nD) (W : Valuation τ sig (Elt F)) :
    (StableHlo.held (c : Thread nD τ) ({rA, rB, rY} : Finset (DevRef τ sig)) W : sProp 𝕄)
      = iprop(((c, rA) ↦{fullShare} W rA) ∗ ((c, rB) ↦{fullShare} W rB) ∗ ((c, rY) ↦{fullShare} W rY)) := by
  unfold StableHlo.held
  rw [bigSep_insert (by simp only [Finset.mem_insert, Finset.mem_singleton]; exact fun h => h.elim rA_ne_rB rA_ne_rY),
    bigSep_insert (by simp only [Finset.mem_singleton]; exact rB_ne_rY), bigSep_singleton]
  rfl

/-- After the concatenation the two results hold what they held and the answer their concatenation. -/
theorem tail_after_A (c : Dev nD) (FA FB v) :
    StableHlo.after ([hostOps1 (F := F)].flatten) (tailVal m c FA FB v) rA = FA := by
  simp only [List.flatten_cons, List.flatten_nil, List.append_nil]
  show StableHlo.after hostOps1 _ (Proc.devRef .tc main_call0_v0_0) = _
  after_results
  exact tailVal_A m c FA FB v
theorem tail_after_B (c : Dev nD) (FA FB v) :
    StableHlo.after ([hostOps1 (F := F)].flatten) (tailVal m c FA FB v) rB = FB := by
  simp only [List.flatten_cons, List.flatten_nil, List.append_nil]
  show StableHlo.after hostOps1 _ (Proc.devRef .tc main_call0_v0_1) = _
  after_results
  exact tailVal_B m c FA FB v
theorem tail_after_Y (c : Dev nD) (FA FB v) :
    StableHlo.after ([hostOps1 (F := F)].flatten) (tailVal m c FA FB v) rY
      = concatenate S10000x128 0 [⟨S5120x128, FA⟩, ⟨S4880x128, FB⟩] Facts₀.concatenates_S5120x128_S4880x128_S10000x128_d0 := by
  simp only [List.flatten_cons, List.flatten_nil, List.append_nil]
  show StableHlo.after hostOps1 _ (Proc.devRef .tc main_v0) = _
  after_results
  exact (show _ = concatenate S10000x128 0 [⟨S5120x128, tailVal m c FA FB v rA⟩, ⟨S4880x128, tailVal m c FA FB v rB⟩]
      Facts₀.concatenates_S5120x128_S4880x128_S10000x128_d0 from rfl).trans (by rw [tailVal_A, tailVal_B])

include m in
set_option backward.isDefEq.respectTransparency.types false in
theorem tail_concat (c : Dev nD) (FA : Buf (Elt F) ((c : Thread nD τ).loc main_call0_v0_0)) (FB : Buf (Elt F) ((c : Thread nD τ).loc main_call0_v0_1))
    (v : Buf (Elt F) ((c : Thread nD τ).loc main_v0)) (Q' : PUnit → sProp 𝕄) :
    iprop(boundary (c : Thread nD τ) ∗ (((c : Thread nD τ).loc main_call0_v0_0) ↦{fullShare} FA) ∗ (((c : Thread nD τ).loc main_call0_v0_1) ↦{fullShare} FB)
        ∗ (((c : Thread nD τ).loc main_v0) ↦{fullShare} v)
        ∗ (iprop((((c : Thread nD τ).loc main_call0_v0_0) ↦{fullShare} FA) ∗ (((c : Thread nD τ).loc main_call0_v0_1) ↦{fullShare} FB)
            ∗ (((c : Thread nD τ).loc main_v0) ↦{fullShare}
                concatenate S10000x128 0 [⟨S5120x128, FA⟩, ⟨S4880x128, FB⟩] Facts₀.concatenates_S5120x128_S4880x128_S10000x128_d0)) -∗ Q' ⟨⟩))
      ⊢ wp frame (wpE (Pipeline.defs (fun q => (cfgs q).toPCfg (Val := Elt F)) defs₀) Variants.none.lift (c : Thread nD τ) none) Set.univ
          (Pipeline.chain [StableHlo.seq hostOps1]) Q' := by
  iintro ⟨Hb, HA, HB, HY, Hk⟩
  ihave Hh := (show iprop((((c : Thread nD τ).loc main_call0_v0_0) ↦{fullShare} FA) ∗ (((c : Thread nD τ).loc main_call0_v0_1) ↦{fullShare} FB)
        ∗ (((c : Thread nD τ).loc main_v0) ↦{fullShare} v))
      ⊢ (StableHlo.held (c : Thread nD τ) ({rA, rB, rY} : Finset (DevRef τ sig)) (tailVal m c FA FB v) : sProp 𝕄) from by
        rw [held3, tailVal_A, tailVal_B, tailVal_Y]) $$ [HA HB HY]
  · isplitl [HA]; · iexact HA
    isplitl [HB]; · iexact HB
    iexact HY
  iapply (Pipeline.wp_seqs_then (fun q => (cfgs q).toPCfg (Val := Elt F)) defs₀ Variants.none c ({rA, rB, rY} : Finset (DevRef τ sig)) [] [hostOps1]
    (fun ops hops op hop => by
      simp only [List.mem_cons, List.mem_nil_iff, or_false] at hops; subst hops
      simp only [hostOps1, List.mem_cons, List.mem_nil_iff, or_false] at hop; subst hop
      exact Finset.Subset.refl _)
    (fun ops hops op hop => by
      simp only [List.mem_cons, List.mem_nil_iff, or_false] at hops; subst hops
      exact (List.forall_iff_forall_mem.mp hostOps1_fresh') op hop)
    (tailVal m c FA FB v)) $$ [Hb Hh]
  · isplitl [Hb]; · iexact Hb
    iexact Hh
  iintro ⟨-, Hh⟩
  ihave Hh' := (show (StableHlo.held (c : Thread nD τ) ({rA, rB, rY} : Finset (DevRef τ sig))
        (StableHlo.after [hostOps1].flatten (tailVal m c FA FB v)) : sProp 𝕄)
      ⊢ iprop((((c : Thread nD τ).loc main_call0_v0_0) ↦{fullShare} FA) ∗ (((c : Thread nD τ).loc main_call0_v0_1) ↦{fullShare} FB)
          ∗ (((c : Thread nD τ).loc main_v0) ↦{fullShare}
              concatenate S10000x128 0 [⟨S5120x128, FA⟩, ⟨S4880x128, FB⟩] Facts₀.concatenates_S5120x128_S4880x128_S10000x128_d0)) from by
        rw [held3, tail_after_A, tail_after_B, tail_after_Y]) $$ Hh
  rw [Pipeline.chain_nil, wp_pure]
  imodintro
  iapply Hk
  iexact Hh'

end Cert.Kernel.Hand

end
-- ==== Proof.WordLevel.Run.lean ====
/-
  The run of the graph-convolution program from launch to return, for every float instance.

  @main is the kernel region followed by one host line. The region's launch hands the pipeline the five distinct arrays
  behind its six windows; `adj`, read by both band streams, is split in two halves of its share, one per stream, and
  both halves come back when the region ends (an input array is never written). Of the core's other buffers the kept
  buffer goes to the body's invariant — anything before the first point, the support after every point — and the
  answer's buffer bypasses the region and is written by the host line, the concatenation of the two results.
  The run ends with every window's array at contents its write-backs allow — for a window whose contents are named,
  exactly the contents the proof data computes — and, when the second result is named too, with the answer at the
  concatenation of the two computed results.
-/
import proofs.«171387_g2783138808134_cont_9to1_832_9_alg».proof.Proof.WordLevel.HostTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)
open Idealize.SL.BI (bigSepL bigSep_eq_bigSepL_of_eq bigSepL_cons_cons bigSepL_singleton)

variable (m : (ℓ : Loc nD τ sig) → Buf (Elt F) ℓ) (ρ : Dev nD → PrngReg)

/-- Core `c`'s buffer contents when the region is entered: the launch contents (no host operation precedes it). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- @main is the region followed by the one host operation (the concatenation of the two results). -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall])
    (by simp only [List.Forall]) main_chain

/-- A whole buffer's points-to read against the state: the memory holds its contents. -/
theorem read_one (ℓ : Loc nD τ sig) (v : Buf (Elt F) ℓ) (s' : Phys nD τ sig (Elt F)) :
    iprop((ℓ ↦{fullShare} v) ∗ SI s') ⊢ (iprop(⌜s'.mem.mem ℓ = v⌝ ∗ SI s') : sProp 𝕄) := by
  have h := pointsTo_read_all (Ix := Unit) (Name := ℕ) (U := UR sig nD τ) (Lvl := ℕ) ({()} : Finset Unit) (fun _ => ℓ) (fun _ => v) s'
  rw [bigSep_singleton] at h
  refine h.trans ?_
  iintro ⟨%h', HSI⟩
  isplitr; · ipureintro; exact h' () (Finset.mem_singleton_self _)
  iexact HSI

/-- The proof data read relationally, the second result's window forgotten or not. -/
abbrev rdat (b5 : Bool) (c : Dev nD) : RDat τ (Elt F) Unit ℕ (UR sig nD τ) ℕ cfg0 c := (dats m c).toRForget (fgt b5)

/-- What the run ends with: every window's array at contents its write-backs allow, and — when the second result is
    named — the answer array at the concatenation of the two results. -/
def RunPost (b5 : Bool) : PUnit × MemSt nD τ sig (Elt F) → Prop := fun r =>
  ∀ c : Dev nD, (∀ w : Fin cfg0.W, (rdat m b5 c).ArrAt w cfg0.N (r.2.mem ((cfg0.win w).arr.view.loc (c : Thread nD τ))))
    ∧ (b5 = false → r.2.mem ((c : Thread nD τ).loc main_v0)
        = concatenate S10000x128 0 [⟨S5120x128, (dats m c).arrAt 4 cfg0.N⟩, ⟨S4880x128, (dats m c).arrAt 5 cfg0.N⟩] Facts₀.concatenates_S5120x128_S4880x128_S10000x128_d0)

/-- An input array whose window is named ends as it was launched: it is never written back. -/
theorem input_kept (b5 : Bool) (c : Dev nD) (w : Fin cfg0.W) (hw : fgt b5 w = false) (hin : (cfg0.win w).isOut = false)
    (X : Buf (Elt F) ((cfg0.win w).arr.view.loc (c : Thread nD τ))) (h : (rdat m b5 c).ArrAt w cfg0.N X) :
    X = m ((cfg0.win w).arr.view.loc (c : Thread nD τ)) :=
  (((dats m c).toRForget_arrAt_iff hw cfg0.N X).mp h).trans ((dats m c).arrAt_in w hin _)

set_option backward.isDefEq.respectTransparency.types false in
/-- At the compiled mesh, for any float values, from any memory whose counters are zero: every weakly fair execution of
    @main terminates, nothing faulting, in a state satisfying `RunPost`. -/
theorem run_main (b5 : Bool) (hloc : b5 = false → RowLocal F) :
    θ_run defs (onTc (τ := τ) (main (F := F))) (s₀ m ρ) (RunPost m b5) :=
  Pipeline.RDat.θ_run_region_pf_tail (fun q => (cfgs q).toPCfg (Val := Elt F)) (fun q => (cfgs q).toPCfg_adm)
    (fun _ c => rdat m b5 c) () cellOf_inj (0 : Fin 1) winFacts₀0 (Pipeline.OwnSemFacts.none spec0) (Pipeline.PreFacts.none _)
    emb₁ defs₀ Variants.none m ρ main (fun _ => Pipeline.chain [StableHlo.seq hostOps1])
    (hbody := fun c => (body_obligation m b5 hloc c).toRForget)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => by
      show Pipeline.arrBufs spec0 c (V m c) ⊢ (dats m c).arrays (dats m c).A
      unfold Pipeline.arrBufs Dat.arrays
      rw [bigSep_eq_bigSepL_of_eq [main_arg0, main_arg2, main_arg1, main_call0_v0_0, main_call0_v0_1] (by decide) (by decide), bigSep_W0]
      show iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_call0_v0_0) ↦{fullShare} V m c main_call0_v0_0)
          ∗ (((c : Thread nD τ).loc main_call0_v0_1) ↦{fullShare} V m c main_call0_v0_1)) ⊢ _
      rw [show (dats m c).share 0 = fullShare from rfl, show (dats m c).share 1 = fullShare from rfl,
        show (dats m c).share 2 = fullShare.left from rfl, show (dats m c).share 3 = fullShare.right from rfl,
        show (dats m c).share 4 = fullShare from rfl, show (dats m c).share 5 = fullShare from rfl]
      simp only [View.set_whole]
      iintro ⟨Hx, Hw, Ha, Ho4, Ho5⟩
      ihave Ha' := (pointsTo_share (PosShare.mem_left_op_right fullShare)).1 $$ Ha
      icases Ha' with ⟨Ha2, Ha3⟩
      isplitl [Hx]; · iexact Hx
      isplitl [Hw]; · iexact Hw
      isplitl [Ha2]; · iexact Ha2
      isplitl [Ha3]; · iexact Ha3
      isplitl [Ho4]; · iexact Ho4
      iexact Ho5)
    (hpf := fun _ k => k.elim0)
    (X := fun _ => iprop(emp)) (Y := fun _ => iprop(emp))
    (Z := fun c => iprop(((c : Thread nD τ).loc main_v0) ↦{fullShare} V m c main_v0))
    (Z' := fun c => iprop(∃ v, ⌜b5 = false → v = concatenate S10000x128 0 [⟨S5120x128, (dats m c).arrAt 4 cfg0.N⟩, ⟨S4880x128, (dats m c).arrAt 5 cfg0.N⟩] Facts₀.concatenates_S5120x128_S4880x128_S10000x128_d0⌝
        ∗ ((c : Thread nD τ).loc main_v0) ↦{fullShare} v))
    (hX := fun c => by
      rw [Pipeline.unscopedRestP_none, unscopedRest0_eq]
      iintro ⟨HU, -, -, -, -, -⟩; imodintro
      isplitr; · iempintro
      iexact HU)
    (hin := fun c => by
      rw [scopedRest0_eq]
      show _ ⊢ iprop(∃ d, owns (c : Thread nD τ) scr fullShare d)
      iintro ⟨-, -, ⟨%f, H⟩⟩
      iexists f; rw [owns_whole]; iexact H)
    (hout := fun c => by
      rw [Pipeline.ownSems0_none, scopedRest0_eq]
      show keptAt m c (Fin.last cfg0.N).val ⊢ _
      rw [keptAt_pos m c _ (by decide), owns_whole]
      iintro H; isplitr; · iempintro
      isplitr; · iempintro
      iexists _; iexact H)
    (htail := fun c Q' => by
      show iprop((iprop((rdat m b5 c).arraysAt cfg0.N ∗ _) -∗ Q' ⟨⟩) ∗ boundary _ ∗ (rdat m b5 c).arraysAt cfg0.N ∗ _) ⊢ _
      unfold RDat.arraysAt
      rw [bigSep_W0]
      rw [show (rdat m b5 c).share 0 = fullShare from rfl, show (rdat m b5 c).share 1 = fullShare from rfl,
        show (rdat m b5 c).share 2 = fullShare.left from rfl, show (rdat m b5 c).share 3 = fullShare.right from rfl,
        show (rdat m b5 c).share 4 = fullShare from rfl, show (rdat m b5 c).share 5 = fullShare from rfl]
      simp only [View.set_whole]
      iintro ⟨Hk, Hb, ⟨⟨%F0, %h0, H0⟩, ⟨%F1, %h1, H1⟩, ⟨%F2, %h2, H2⟩, ⟨%F3, %h3, H3⟩, ⟨%F4, %h4, H4⟩, ⟨%F5, %h5, H5⟩⟩, HZ⟩
      iapply (tail_concat m c F4 F5 (V m c main_v0) Q')
      isplitl [Hb]; · iexact Hb
      isplitl [H4]; · iexact H4
      isplitl [H5]; · iexact H5
      isplitl [HZ]; · iexact HZ
      iintro ⟨H4, H5, HY⟩
      iapply Hk
      isplitl [H0 H1 H2 H3 H4 H5]
      · isplitl [H0]
        · iexists F0; isplitr; · ipureintro; exact h0
          iexact H0
        isplitl [H1]
        · iexists F1; isplitr; · ipureintro; exact h1
          iexact H1
        isplitl [H2]
        · iexists F2; isplitr; · ipureintro; exact h2
          iexact H2
        isplitl [H3]
        · iexists F3; isplitr; · ipureintro; exact h3
          iexact H3
        isplitl [H4]
        · iexists F4; isplitr; · ipureintro; exact h4
          iexact H4
        · iexists F5; isplitr; · ipureintro; exact h5
          iexact H5
      · iexists _; isplitr
        swap
        · iexact HY
        · ipureintro
          intro hb; subst hb
          rw [((dats m c).toRForget_arrAt_iff (fgt := fgt false) (w := 4) rfl cfg0.N F4).mp h4,
            ((dats m c).toRForget_arrAt_iff (fgt := fgt false) (w := 5) rfl cfg0.N F5).mp h5])
    (QY := fun c s => b5 = false → s.mem ((c : Thread nD τ).loc main_v0)
        = concatenate S10000x128 0 [⟨S5120x128, (dats m c).arrAt 4 cfg0.N⟩, ⟨S4880x128, (dats m c).arrAt 5 cfg0.N⟩] Facts₀.concatenates_S5120x128_S4880x128_S10000x128_d0)
    (hY := fun c s' => by
      iintro ⟨-, ⟨%v, %hv, HZ⟩, HSI⟩
      ihave H := (pointsTo_read_all ({()} : Finset Unit) (fun _ => (c : Thread nD τ).loc main_v0) (fun _ => v) s') $$ [HZ HSI]
      · rw [bigSep_singleton]; isplitl [HZ] <;> iassumption
      icases H with ⟨%h, HSI⟩
      imodintro
      isplitr
      · ipureintro; intro hb; rw [h () (Finset.mem_singleton_self _)]; exact hv hb
      · iexact HSI)
    (hQ := fun s h c => ⟨(h c).1, (h c).2.2⟩)

end Cert.Kernel.Hand

end
-- ==== Proof.RowLocalIdeal.lean ====
/-
  A band-times-support product, row by row.

  The kernel multiplies a 256-row band of the adjacency matrix by the support (10000 × 128) into a zero accumulator.
  Entry (r, n) of the product is the sum over k of band (r, k) times support (k, n): it reads row r of the band and
  no other row. The second result's window moves, at every point, exactly as many rows as the second band's fetch
  filled (256, and 16 at the last point, where both overhang their arrays by 240 rows), and the band's rows are
  fetched at full width. So the rows that are written back do not depend on what the staging buffer held past the
  matrix's end.
-/
import proofs.«171387_g2783138808134_cont_9to1_832_9_alg».proof.Proof.Blocks
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open scoped BigOperators

/-- The band product into the zero accumulator, read at an output index: the sum over the contraction index of the
    band's entry times the support's. -/
theorem pay3_apply (v : Vec Ideal S256x10000 .f32) (S : Vec Ideal S10000x128 .f32) (j : S256x128.Idx) :
    k0_pay3 (F := Ideal) v S j
      = ∑ k : dot_S256x10000_S10000x128_S256x128_1_0_0_1_n_n.contr.Idx,
          v (dot_S256x10000_S10000x128_S256x128_1_0_0_1_n_n.lhsIdx j k) * S (dot_S256x10000_S10000x128_S256x128_1_0_0_1_n_n.rhsIdx j k) := by
  unfold k0_pay3
  exact Ideal.matmul_constant_zero_apply _ _ _ _ _

/-- The band's index at output (r, n) and any contraction position lies in row r. -/
theorem band_row (j : S256x128.Idx) (q : dot_S256x10000_S10000x128_S256x128_1_0_0_1_n_n.contr.Idx) :
    (dot_S256x10000_S10000x128_S256x128_1_0_0_1_n_n.lhsIdx j q 0).val = (j 0).val := by
  unfold DotDims.lhsIdx
  rw [dif_neg (show ¬(0 : Fin S256x10000.rank) ∈ dot_S256x10000_S10000x128_S256x128_1_0_0_1_n_n.lhsBatch by decide),
    dif_pos (show (0 : Fin S256x10000.rank) ∈ dot_S256x10000_S10000x128_S256x128_1_0_0_1_n_n.lhsNonContracting by decide)]
  rfl

/-- At every point the second result's write-back moves as many rows as the second band's fetch fills, -/
theorem rows_eq : ∀ t : Fin grid0.N, win0_5.xsize (grid0.coords t) (0 : Fin 2) = win0_3.xsize (grid0.coords t) (0 : Fin 2) := by
  decide +kernel
/-- and the band's rows are fetched at full width. -/
theorem cols_full : ∀ t : Fin grid0.N, win0_3.xsize (grid0.coords t) (1 : Fin 2) = 10000 := by
  decide +kernel

/-- Where the transfer moves an index, the filled contents do not depend on what was there before. -/
theorem fill_eq_of_moved {α : Type} (w : Window sig grid0) (i : grid0.Coords) (d d' : w.block.Idx → α) (g : (w.xblock i).Idx → α)
    {j : w.block.Idx} (h : w.moved i j = true) : w.fill i d g j = w.fill i d' g j := by
  unfold Window.fill; rw [dif_pos h, dif_pos h]

/-- The band index a written-back entry reads is one the band's fetch filled. -/
theorem band_idx_moved (t : Fin grid0.N) (j : (win0_5.xblock (grid0.coords t)).Idx)
    (k : dot_S256x10000_S10000x128_S256x128_1_0_0_1_n_n.contr.Idx) :
    win0_3.moved (grid0.coords t) (dot_S256x10000_S10000x128_S256x128_1_0_0_1_n_n.lhsIdx (win0_5.xinj (grid0.coords t) j) k) = true := by
  refine (win0_3.moved_iff _ _).mpr ?_
  have key : ∀ a : Fin 2, ((dot_S256x10000_S10000x128_S256x128_1_0_0_1_n_n.lhsIdx (win0_5.xinj (grid0.coords t) j) k) a).val
      < win0_3.xsize (grid0.coords t) a := fun a => by
    match a with
    | ⟨0, _⟩ =>
      have h0 : (j (0 : Fin 2)).val < win0_5.xsize (grid0.coords t) (0 : Fin 2) := (j (0 : Fin 2)).isLt
      rw [rows_eq t] at h0
      exact lt_of_eq_of_lt (band_row _ _) h0
    | ⟨1, _⟩ =>
      exact lt_of_lt_of_eq ((dot_S256x10000_S10000x128_S256x128_1_0_0_1_n_n.lhsIdx (win0_5.xinj (grid0.coords t) j) k) (1 : Fin 2)).isLt (cols_full t).symm
  exact key

/-- The rows of the second product that are written back read only band rows the fetch filled: whatever the staging
    buffer held past the matrix's end, they are the same. -/
theorem rowLocal_ideal : ∀ (t : Fin cfg0.N) (d : Vec Ideal S256x10000 .f32) (b : (win0_3.xblock (grid0.coords t)).Idx → Elt Ideal .f32)
    (S : Vec Ideal S10000x128 .f32),
    win0_5.cut (grid0.coords t) (k0_pay3 (win0_3.fill (grid0.coords t) d b) S)
      = win0_5.cut (grid0.coords t) (k0_pay3 (win0_3.fill (grid0.coords t) (fun _ => zf) b) S) := by
  intro t d b S
  funext j
  refine (pay3_apply _ S _).trans ((Finset.sum_congr rfl fun k _ => ?_).trans (pay3_apply _ S _).symm)
  exact congrArg (· * _) (fill_eq_of_moved win0_3 (grid0.coords t) d (fun _ => zf) b (band_idx_moved t j k))

end Cert.KernelIdeal.Hand

end
-- ==== Proof.Spec.lean ====
/-
  What the graph-convolution layer computes, as one function of its three arguments over the extended reals:
  `out[i, n] = ∑ₖ adj[i, k] · (∑ⱼ x[k, j] · W[j, n])` — the adjacency matrix times the product of the features and
  the weights, both products plain sums (no rounding, no reordering needed: each side of the certificate computes
  exactly these two nested sums).
-/
import Idealize.ShloMosaic.PureOps.Ideal
import Idealize.ShloMosaic.Lib.ValueIdx

noncomputable section

open scoped BigOperators

namespace Cert.GcnSpec

open Idealize.ShloMosaic Idealize.ShloMosaic.ValueIdx

/-- Features and result: 10000 nodes by 128 channels; the adjacency matrix; the weights. -/
abbrev Sx : Shape := ⟨2, ![10000, 128]⟩
abbrev Sa : Shape := ⟨2, ![10000, 10000]⟩
abbrev Sw : Shape := ⟨2, ![128, 128]⟩

/-- The support `x · W`: row `k`, channel `n`. -/
def support (x : Sx.Idx → EReal) (W : Sw.Idx → EReal) : Sx.Idx → EReal :=
  fun i => ∑ j : Fin 128, x (ix2 (i 0 : Fin 10000) j) * W (ix2 j (i 1 : Fin 128))

/-- The layer's output `adj · (x · W)`: node `i`, channel `n`. -/
def G (x : Sx.Idx → EReal) (adj : Sa.Idx → EReal) (W : Sw.Idx → EReal) : Sx.Idx → EReal :=
  fun i => ∑ k : Fin 10000, adj (ix2 (i 0 : Fin 10000) k) * support x W (ix2 k (i 1 : Fin 128))

end Cert.GcnSpec

end
-- ==== Proof.KernelValue.lean ====
/-
  What the graph-convolution kernel leaves in its two results, entry by entry.

  At the extended reals a matrix product into a zero accumulator is, at row r and column n, the sum over the
  contraction index k of the left factor at (r, k) times the right factor at (k, n). The kernel's support is `x · W`
  (contraction over the 128 channels), kept from the first point on; at point t it multiplies rows 256 t … of the
  adjacency matrix, and rows 5120 + 256 t …, by the support. So row r of the first product is row 256 t + r of
  `adj · (x · W)`, and row r of the second is row 5120 + 256 t + r wherever that row exists. The first result's
  twenty blocks tile its 5120 rows; the second result's tile its 4880 rows, the last block cut to 16 rows. Hence the
  first result ends holding rows 0 … 5119 of the layer's output and the second rows 5120 … 9999.
-/
import proofs.«171387_g2783138808134_cont_9to1_832_9_alg».proof.Proof.Blocks
import proofs.«171387_g2783138808134_cont_9to1_832_9_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The operands' indices at an output index and a contraction position, axis by axis -/

theorem xw_lhs_row (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs_col (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs_row (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs_col (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem bs_lhs_row (i : S256x128.Idx) (q : dot_S256x10000_S10000x128_S256x128_1_0_0_1_n_n.contr.Idx) : (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem bs_lhs_col (i : S256x128.Idx) (q : dot_S256x10000_S10000x128_S256x128_1_0_0_1_n_n.contr.Idx) : (dot_S256x10000_S10000x128_S256x128_1_0_0_1_n_n.lhsIdx i q 1).val = (q ⟨0, by decide⟩).val :=
  dot_S256x10000_S10000x128_S256x128_1_0_0_1_n_n.lhsIdx_val_of_single rfl i q
theorem bs_rhs_row (i : S256x128.Idx) (q : dot_S256x10000_S10000x128_S256x128_1_0_0_1_n_n.contr.Idx) : (dot_S256x10000_S10000x128_S256x128_1_0_0_1_n_n.rhsIdx i q 0).val = (q ⟨0, by decide⟩).val :=
  dot_S256x10000_S10000x128_S256x128_1_0_0_1_n_n.rhsIdx_val_of_single rfl i q
theorem bs_rhs_col (i : S256x128.Idx) (q : dot_S256x10000_S10000x128_S256x128_1_0_0_1_n_n.contr.Idx) : (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-! ## The three payloads at an index -/

/-- The support's payload: `x · W` at node r and channel n is the sum over the input channels. -/
theorem pay1_sum (x : Vec Ideal S10000x128 .f32) (w : Vec Ideal S128x128 .f32) (r : Fin 10000) (n : Fin 128) :
    k0_pay1 (F := Ideal) x w (ix2 r n) = ∑ k : Fin 128, x (ix2 r k) * w (ix2 k n) := by
  unfold k0_pay1
  refine (congrFun (shapeCast_self _ _) _).trans ?_
  refine (Ideal.matmul_constant_zero_apply _ _ _ _ _).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r n) ((contrEquiv1 dot_S10000x128_S128x128_S10000x128_1_0_0_1_n_n 128 rfl rfl).symm k) = ix2 r k := funext fun a => Fin.ext (by
    match a with
    | ⟨0, _⟩ => exact xw_lhs_row _ _
    | ⟨1, _⟩ => exact (xw_lhs_col _ _).trans hk)
  have er : dot_S10000x128_S128x128_S10000x128_1_0_0_1_n_n.rhsIdx (ix2 r n) ((contrEquiv1 dot_S10000x128_S128x128_S10000x128_1_0_0_1_n_n 128 rfl rfl).symm k) = ix2 k n := funext fun a => Fin.ext (by
    match a with
    | ⟨0, _⟩ => exact (xw_rhs_row _ _).trans hk
    | ⟨1, _⟩ => exact xw_rhs_col _ _)
  rw [el, er]

/-- The first band product at row r of the band and channel n: the sum over the nodes. -/
theorem pay2_sum (v : Vec Ideal S256x10000 .f32) (S : Vec Ideal S10000x128 .f32) (r : Fin 256) (n : Fin 128) :
    k0_pay2 (F := Ideal) v S (ix2 r n) = ∑ k : Fin 10000, v (ix2 r k) * S (ix2 k n) := by
  unfold k0_pay2
  refine (Ideal.matmul_constant_zero_apply _ _ _ _ _).trans ?_
  rw [← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 r n) ((contrEquiv1 dot_S256x10000_S10000x128_S256x128_1_0_0_1_n_n 10000 rfl rfl).symm k) = ix2 r k := funext fun a => Fin.ext (by
    match a with
    | ⟨0, _⟩ => exact bs_lhs_row _ _
    | ⟨1, _⟩ => exact (bs_lhs_col _ _).trans hk)
  have er : dot_S256x10000_S10000x128_S256x128_1_0_0_1_n_n.rhsIdx (ix2 r n) ((contrEquiv1 dot_S256x10000_S10000x128_S256x128_1_0_0_1_n_n 10000 rfl rfl).symm k) = ix2 k n := funext fun a => Fin.ext (by
    match a with
    | ⟨0, _⟩ => exact (bs_rhs_row _ _).trans hk
    | ⟨1, _⟩ => exact bs_rhs_col _ _)
  rw [el, er]

/-- The second band product likewise. -/
theorem pay3_sum (v : Vec Ideal S256x10000 .f32) (S : Vec Ideal S10000x128 .f32) (r : Fin 256) (n : Fin 128) :
    k0_pay3 (F := Ideal) v S (ix2 r n) = ∑ k : Fin 10000, v (ix2 r k) * S (ix2 k n) := by
  unfold k0_pay3
  refine (Ideal.matmul_constant_zero_apply _ _ _ _ _).trans ?_
  rw [← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 r n) ((contrEquiv1 dot_S256x10000_S10000x128_S256x128_1_0_0_1_n_n 10000 rfl rfl).symm k) = ix2 r k := funext fun a => Fin.ext (by
    match a with
    | ⟨0, _⟩ => exact bs_lhs_row _ _
    | ⟨1, _⟩ => exact (bs_lhs_col _ _).trans hk)
  have er : dot_S256x10000_S10000x128_S256x128_1_0_0_1_n_n.rhsIdx (ix2 r n) ((contrEquiv1 dot_S256x10000_S10000x128_S256x128_1_0_0_1_n_n 10000 rfl rfl).symm k) = ix2 k n := funext fun a => Fin.ext (by
    match a with
    | ⟨0, _⟩ => exact (bs_rhs_row _ _).trans hk
    | ⟨1, _⟩ => exact bs_rhs_col _ _)
  rw [el, er]

/-! ## The arrays the kernel reads, and the geometry of its blocks -/

variable (m : (ℓ : Loc nD τ sig) → Buf (Elt Ideal) ℓ) (c : Dev nD)

/-- The features, the adjacency matrix and the weights as the launch finds them. -/
abbrev argX : Vec Ideal S10000x128 .f32 := m ((c : Thread nD τ).loc main_arg0)
abbrev argA : Vec Ideal S10000x10000 .f32 := m ((c : Thread nD τ).loc main_arg1)
abbrev argW : Vec Ideal S128x128 .f32 := m ((c : Thread nD τ).loc main_arg2)

/-- The printed index maps and cuts, decided over the twenty points: band stream one and result one sit at block
    row t, band stream two at block row t + 20 and result two at block row t, all at block column 0; stream one's
    bands and result one's blocks are whole; stream two's band and result two's block are cut alike, to the rows left
    below the matrix's (the result's) end: 256, and 16 at the last point. -/
theorem geom : ∀ t : Fin grid0.N,
    (win0_2.index t (0 : Fin 2) = t.val ∧ win0_2.index t (1 : Fin 2) = 0
      ∧ win0_3.index t (0 : Fin 2) = t.val + 20 ∧ win0_3.index t (1 : Fin 2) = 0)
    ∧ (win0_4.index t (0 : Fin 2) = t.val ∧ win0_4.index t (1 : Fin 2) = 0
      ∧ win0_5.index t (0 : Fin 2) = t.val ∧ win0_5.index t (1 : Fin 2) = 0)
    ∧ (win0_2.xsize (grid0.coords t) (0 : Fin 2) = 256 ∧ win0_2.xsize (grid0.coords t) (1 : Fin 2) = 10000
      ∧ win0_3.xsize (grid0.coords t) (0 : Fin 2) = min 256 (4880 - 256 * t.val) ∧ win0_3.xsize (grid0.coords t) (1 : Fin 2) = 10000)
    ∧ (win0_5.xsize (grid0.coords t) (0 : Fin 2) = min 256 (4880 - 256 * t.val) ∧ win0_5.xsize (grid0.coords t) (1 : Fin 2) = 128) := by
  decide +kernel

theorem grid_N : cfg0.N = 20 := by decide

/-! ## The features and the weights are read whole; the support -/

theorem idx0_zero : ∀ a : Fin 2, win0_0.index t₀ a = 0 := by decide +kernel
theorem idx1_zero : ∀ a : Fin 2, win0_1.index t₀ a = 0 := by decide +kernel

/-- `x`'s one block is the whole array. -/
theorem xblk_eq : xblk m c = argX m c := by
  funext j
  refine Eq.trans (b := argX m c ((win0_0.rect t₀).emb j)) rfl (congrArg (argX m c) ?_)
  funext a; exact Fin.ext (win0_0.rect_emb_val_of_index_zero t₀ a (idx0_zero a) j)

/-- `W`'s one block is the whole array. -/
theorem wblk_eq : wblk m c = argW m c := by
  funext j
  refine Eq.trans (b := argW m c ((win0_1.rect t₀).emb j)) rfl (congrArg (argW m c) ?_)
  funext a; exact Fin.ext (win0_1.rect_emb_val_of_index_zero t₀ a (idx1_zero a) j)

/-- The support the kernel keeps is `x · W`, entry by entry. -/
theorem support_apply (k : Fin 10000) (n : Fin 128) :
    support m c (ix2 k n) = ∑ j : Fin 128, argX m c (ix2 k j) * argW m c (ix2 j n) := by
  show k0_pay1 (xblk m c) (wblk m c) (ix2 k n) = _
  rw [xblk_eq, wblk_eq]
  exact pay1_sum _ _ k n

/-! ## The bands are the adjacency matrix's rows -/

/-- Row r of stream one's band at point t is row 256 t + r of the adjacency matrix. -/
theorem aband_apply (t : Fin cfg0.N) (r : Fin 256) (k : Fin 10000) :
    aband m c t (ix2 r k) = argA m c (ix2 (⟨256 * t.val + r.val, by have := t.isLt; have := grid_N; omega⟩ : Fin 10000) k) := by
  obtain ⟨⟨i0, i1, -, -⟩, -, ⟨x0, x1, -, -⟩, -⟩ := geom t
  have hlt : ∀ a : Fin 2, (ix2 r k a).val < win0_2.xsize (grid0.coords t) a := fun a => by
    match a with
    | ⟨0, _⟩ => exact lt_of_lt_of_eq r.isLt x0.symm
    | ⟨1, _⟩ => exact lt_of_lt_of_eq k.isLt x1.symm
  refine (win0_2.fill_xinj (grid0.coords t) (fun _ => zf) (iblk m c 2 t) (fun a => ⟨(ix2 r k a).val, hlt a⟩)).trans ?_
  refine Eq.trans (b := argA m c ((win0_2.rect t).emb (fun a => ⟨(ix2 r k a).val, hlt a⟩))) rfl (congrArg (argA m c) ?_)
  funext a; apply Fin.ext
  match a with
  | ⟨0, _⟩ =>
    refine (win0_2.rect_emb_val t _ (0 : Fin 2)).trans ?_
    show win0_2.index t (0 : Fin 2) * 256 + r.val = 256 * t.val + r.val
    rw [i0]; omega
  | ⟨1, _⟩ =>
    refine (win0_2.rect_emb_val t _ (1 : Fin 2)).trans ?_
    show win0_2.index t (1 : Fin 2) * 10000 + k.val = k.val
    rw [i1]; omega

/-- Row r of stream two's band at point t, where that row is inside the matrix, is its row 5120 + 256 t + r. -/
theorem bband_apply (t : Fin cfg0.N) (r : Fin 256) (k : Fin 10000) (h : 5120 + 256 * t.val + r.val < 10000) :
    bband m c t (ix2 r k) = argA m c (ix2 (⟨5120 + 256 * t.val + r.val, h⟩ : Fin 10000) k) := by
  obtain ⟨⟨-, -, i0, i1⟩, -, ⟨-, -, x0, x1⟩, -⟩ := geom t
  have hlt : ∀ a : Fin 2, (ix2 r k a).val < win0_3.xsize (grid0.coords t) a := fun a => by
    match a with
    | ⟨0, _⟩ => show r.val < win0_3.xsize (grid0.coords t) (0 : Fin 2); rw [x0]; have := r.isLt; omega
    | ⟨1, _⟩ => exact lt_of_lt_of_eq k.isLt x1.symm
  refine (win0_3.fill_xinj (grid0.coords t) (fun _ => zf) (iblk m c 3 t) (fun a => ⟨(ix2 r k a).val, hlt a⟩)).trans ?_
  refine Eq.trans (b := argA m c ((win0_3.rect t).emb (fun a => ⟨(ix2 r k a).val, hlt a⟩))) rfl (congrArg (argA m c) ?_)
  funext a; apply Fin.ext
  match a with
  | ⟨0, _⟩ =>
    refine (win0_3.rect_emb_val t _ (0 : Fin 2)).trans ?_
    show win0_3.index t (0 : Fin 2) * 256 + r.val = 5120 + 256 * t.val + r.val
    rw [i0]; omega
  | ⟨1, _⟩ =>
    refine (win0_3.rect_emb_val t _ (1 : Fin 2)).trans ?_
    show win0_3.index t (1 : Fin 2) * 10000 + k.val = k.val
    rw [i1]; omega

/-! ## The two products, row by row, are the layer's output -/

/-- Row r of the first product at point t is row 256 t + r of `adj · (x · W)`. -/
theorem rowsA (t : Fin cfg0.N) (r : Fin 256) (n : Fin 128) :
    k0_pay2 (aband m c t) (support m c) (ix2 r n)
      = GcnSpec.G (argX m c) (argA m c) (argW m c) (ix2 (⟨256 * t.val + r.val, by have := t.isLt; have := grid_N; omega⟩ : Fin 10000) n) := by
  rw [pay2_sum]
  refine Finset.sum_congr rfl fun k _ => ?_
  rw [aband_apply, support_apply]
  rfl

/-- Row r of the second product at point t, where that row is inside the matrix, is row 5120 + 256 t + r. -/
theorem rowsB (t : Fin cfg0.N) (r : Fin 256) (n : Fin 128) (h : 5120 + 256 * t.val + r.val < 10000) :
    k0_pay3 (bband m c t) (support m c) (ix2 r n)
      = GcnSpec.G (argX m c) (argA m c) (argW m c) (ix2 (⟨5120 + 256 * t.val + r.val, h⟩ : Fin 10000) n) := by
  rw [pay3_sum]
  refine Finset.sum_congr rfl fun k _ => ?_
  rw [bband_apply m c t r k h, support_apply]
  rfl

/-! ## What each point writes back, and the two results after the run -/

/-- Rows 0 … 5119 of the layer's output, laid out as the first result; -/
def outA : S5120x128.Idx → Elt Ideal .f32 := fun i =>
  GcnSpec.G (argX m c) (argA m c) (argW m c) (ix2 (⟨(i 0).val, by have := idx2_lt0 i; omega⟩ : Fin 10000) (i 1 : Fin 128))
/-- rows 5120 … 9999, laid out as the second. -/
def outB : S4880x128.Idx → Elt Ideal .f32 := fun i =>
  GcnSpec.G (argX m c) (argA m c) (argW m c) (ix2 (⟨5120 + (i 0).val, by have := idx2_lt0 i; omega⟩ : Fin 10000) (i 1 : Fin 128))

theorem after4 (t : Fin cfg0.N) : (dats m c).after 4 t = k0_pay2 (aband m c t) (support m c) := by dsimp only [dats]
theorem after5 (t : Fin cfg0.N) : (dats m c).after 5 t = k0_pay3 (bband m c t) (support m c) := by dsimp only [dats]

/-- What point t writes back to the first result is block t of those rows. -/
theorem flushed4_eq (t : Fin cfg0.N) :
    (dats m c).flushed 4 t = ((cfg0.win 4).blk t).view.read (Elt Ideal) (outA m c) := by
  obtain ⟨-, ⟨i0, i1, -, -⟩, -, -⟩ := geom t
  funext y
  have hy0 : (y (0 : Fin 2)).val < 256 := (y (0 : Fin 2)).isLt
  have hy1 : (y (1 : Fin 2)).val < 128 := (y (1 : Fin 2)).isLt
  refine Eq.trans (b := k0_pay2 (aband m c t) (support m c) (ix2 (⟨(y (0 : Fin 2)).val, hy0⟩ : Fin 256) (⟨(y (1 : Fin 2)).val, hy1⟩ : Fin 128))) ?_ ?_
  · show (dats m c).after 4 t (win0_4.xinj (grid0.coords t) y) = _
    rw [after4]
    refine congrArg (k0_pay2 (aband m c t) (support m c)) ?_
    funext a; match a with | ⟨0, _⟩ => rfl | ⟨1, _⟩ => rfl
  · refine (rowsA m c t _ _).trans ?_
    refine Eq.trans (b := outA m c ((win0_4.rect t).emb y)) ?_ rfl
    refine congrArg (GcnSpec.G (argX m c) (argA m c) (argW m c)) ?_
    funext a; apply Fin.ext
    match a with
    | ⟨0, _⟩ =>
      refine Eq.trans ?_ (win0_4.rect_emb_val t y (0 : Fin 2)).symm
      show 256 * t.val + (y (0 : Fin 2)).val = win0_4.index t (0 : Fin 2) * 256 + (y (0 : Fin 2)).val
      rw [i0]; omega
    | ⟨1, _⟩ =>
      refine Eq.trans ?_ (win0_4.rect_emb_val t y (1 : Fin 2)).symm
      show (y (1 : Fin 2)).val = win0_4.index t (1 : Fin 2) * 128 + (y (1 : Fin 2)).val
      rw [i1]; omega

/-- What point t writes back to the second result — the rows of its block inside the result, 16 at the last point —
    is block t of those rows. -/
theorem flushed5_eq (t : Fin cfg0.N) :
    (dats m c).flushed 5 t = ((cfg0.win 5).blk t).view.read (Elt Ideal) (outB m c) := by
  obtain ⟨-, ⟨-, -, i0, i1⟩, -, ⟨x0, x1⟩⟩ := geom t
  have hN := grid_N; have ht := t.isLt
  funext y
  have hy0 : (y (0 : Fin 2)).val < min 256 (4880 - 256 * t.val) := lt_of_lt_of_eq (y (0 : Fin 2)).isLt x0
  have hy1 : (y (1 : Fin 2)).val < 128 := lt_of_lt_of_eq (y (1 : Fin 2)).isLt x1
  refine Eq.trans (b := k0_pay3 (bband m c t) (support m c) (ix2 (⟨(y (0 : Fin 2)).val, by omega⟩ : Fin 256) (⟨(y (1 : Fin 2)).val, hy1⟩ : Fin 128))) ?_ ?_
  · show (dats m c).after 5 t (win0_5.xinj (grid0.coords t) y) = _
    rw [after5]
    refine congrArg (k0_pay3 (bband m c t) (support m c)) ?_
    funext a; match a with | ⟨0, _⟩ => rfl | ⟨1, _⟩ => rfl
  · refine (rowsB m c t _ _ (by show 5120 + 256 * t.val + (y (0 : Fin 2)).val < 10000; omega)).trans ?_
    refine Eq.trans (b := outB m c ((win0_5.rect t).emb y)) ?_ rfl
    refine congrArg (GcnSpec.G (argX m c) (argA m c) (argW m c)) ?_
    funext a; apply Fin.ext
    match a with
    | ⟨0, _⟩ =>
      refine Eq.trans ?_ (congrArg (5120 + ·) (win0_5.rect_emb_val t y (0 : Fin 2))).symm
      show 5120 + 256 * t.val + (y (0 : Fin 2)).val = 5120 + (win0_5.index t (0 : Fin 2) * 256 + (y (0 : Fin 2)).val)
      rw [i0]; omega
    | ⟨1, _⟩ =>
      refine Eq.trans ?_ (win0_5.rect_emb_val t y (1 : Fin 2)).symm
      show (y (1 : Fin 2)).val = win0_5.index t (1 : Fin 2) * 128 + (y (1 : Fin 2)).val
      rw [i1]; omega

/-- Every row of the first result is in the block of the point row / 256. -/
theorem cover4 (i : S5120x128.Idx) :
    ∃ t : Fin cfg0.N, (cfg0.win 4).flush t = true ∧ i ∈ ((cfg0.win 4).blk t).view.set := by
  have h0 := idx2_lt0 i; have h1 := idx2_lt1 i
  have hN := grid_N
  obtain ⟨t, ht⟩ : ∃ t : Fin cfg0.N, t.val = (i 0).val / 256 := ⟨⟨(i 0).val / 256, by omega⟩, rfl⟩
  obtain ⟨-, ⟨i0, i1, -, -⟩, -, -⟩ := geom t
  refine ⟨t, flush0_4 t, ?_⟩
  show i ∈ ((View.whole main_call0_v0_0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    rw [i0]; omega
  | ⟨1, _⟩ =>
    show win0_4.index t (1 : Fin 2) * 128 ≤ (i 1).val ∧ (i 1).val < win0_4.index t (1 : Fin 2) * 128 + 128
    rw [i1]; omega

/-- Every row of the second result is in the block of the point row / 256: the last block holds its rows 4864 … 4879. -/
theorem cover5 (i : S4880x128.Idx) :
    ∃ t : Fin cfg0.N, (cfg0.win 5).flush t = true ∧ i ∈ ((cfg0.win 5).blk t).view.set := by
  have h0 := idx2_lt0 i; have h1 := idx2_lt1 i
  have hN := grid_N
  obtain ⟨t, ht⟩ : ∃ t : Fin cfg0.N, t.val = (i 0).val / 256 := ⟨⟨(i 0).val / 256, by omega⟩, rfl⟩
  obtain ⟨-, ⟨-, -, i0, i1⟩, -, ⟨x0, x1⟩⟩ := geom t
  refine ⟨t, flush0_5 t, ?_⟩
  show i ∈ ((View.whole main_call0_v0_1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + win0_5.xsize (grid0.coords t) (0 : Fin 2)
    rw [i0, x0]; omega
  | ⟨1, _⟩ =>
    show win0_5.index t (1 : Fin 2) * 128 ≤ (i 1).val ∧ (i 1).val < win0_5.index t (1 : Fin 2) * 128 + win0_5.xsize (grid0.coords t) (1 : Fin 2)
    rw [i1, x1]; omega

/-- After the run the first result holds rows 0 … 5119 of `adj · (x · W)`, -/
theorem final4 : (dats m c).arrAt 4 cfg0.N = outA m c :=
  (dats m c).arrAt_eq_of_cover 4 (outA m c) (fun t _ => flushed4_eq m c t) cover4

/-- and the second rows 5120 … 9999. -/
theorem final5 : (dats m c).arrAt 5 cfg0.N = outB m c :=
  (dats m c).arrAt_eq_of_cover 5 (outB m c) (fun t _ => flushed5_eq m c t) cover5

/-- The same, entry by entry, in the form the concatenation of the two results is read with. -/
theorem final4_apply (i : S5120x128.Idx) :
    (dats m c).arrAt 4 cfg0.N i
      = GcnSpec.G (argX m c) (argA m c) (argW m c) (ix2 (⟨(i 0).val, by have := idx2_lt0 i; omega⟩ : Fin 10000) (i 1 : Fin 128)) :=
  congrFun (final4 m c) i
theorem final5_apply (i : S4880x128.Idx) :
    (dats m c).arrAt 5 cfg0.N i
      = GcnSpec.G (argX m c) (argA m c) (argW m c) (ix2 (⟨5120 + (i 0).val, by have := idx2_lt0 i; omega⟩ : Fin 10000) (i 1 : Fin 128)) :=
  congrFun (final5 m c) i

end Cert.KernelIdeal.Hand

end
-- ==== Proof.ConcatValue.lean ====
/-
  The answer as its two row ranges laid end to end.

  The program returns the concatenation, along the rows, of the kernel's two results: 5120 rows and 4880 rows.
  If the first result holds rows 0 … 5119 of an array `g` and the second rows 5120 … 9999, the concatenation is `g`:
  a row below 5120 is read from the first piece at the same row, a row from 5120 on from the second piece at that row
  less 5120.
-/
import proofs.«171387_g2783138808134_cont_9to1_832_9_alg».proof.Proof.Gen.KernelIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- Two results that are the two row ranges of `g`, concatenated along the rows, are `g`. -/
theorem concat_rows {α : Type} (p : S5120x128.Idx → α) (q : S4880x128.Idx → α) (g : S10000x128.Idx → α)
    (hp : ∀ i : S5120x128.Idx, p i = g (ix2 (⟨(i 0).val, by have := idx2_lt0 i; omega⟩ : Fin 10000) (i 1 : Fin 128)))
    (hq : ∀ i : S4880x128.Idx, q i = g (ix2 (⟨5120 + (i 0).val, by have := idx2_lt0 i; omega⟩ : Fin 10000) (i 1 : Fin 128))) :
    concatenate S10000x128 0 [⟨S5120x128, p⟩, ⟨S4880x128, q⟩] Facts₀.concatenates_S5120x128_S4880x128_S10000x128_d0 = g := by
  funext j
  have hj0 := idx2_lt0 j
  by_cases hj : (j 0).val < 5120
  · refine (concatenate_pair_apply_left (0 : Fin 2) p q _ j rfl (ix2 (⟨(j 0).val, hj⟩ : Fin 5120) (j 1 : Fin 128))
      (fun b => by match b with | ⟨0, _⟩ => rfl | ⟨1, _⟩ => rfl)).trans ?_
    refine (hp _).trans (congrArg g ?_)
    funext a; match a with | ⟨0, _⟩ => rfl | ⟨1, _⟩ => rfl
  · refine (concatenate_pair_apply_right (0 : Fin 2) p q _ j rfl rfl
      (ix2 (⟨(j 0).val - 5120, by omega⟩ : Fin 4880) (j 1 : Fin 128))
      (fun b hb => by match b, hb with | ⟨0, _⟩, hb => exact absurd rfl hb | ⟨1, _⟩, _ => rfl)
      (show (j 0).val - 5120 + 5120 = (j 0).val by omega)).trans ?_
    refine (hq _).trans (congrArg g ?_)
    funext a
    match a with
    | ⟨0, _⟩ => exact Fin.ext (show 5120 + ((j 0).val - 5120) = (j 0).val by omega)
    | ⟨1, _⟩ => rfl

end Cert.KernelIdeal.Hand

end
-- ==== Proof.RefValue.lean ====
/-
  The reference's value at the extended reals: jnp's two `dot`s, read at an index, are the two nested sums of the
  layer's specification — `adj · (x · W)` with nothing reordered.
-/
import proofs.«171387_g2783138808134_cont_9to1_832_9_alg».proof.Proof.Gen.ReferenceIdeal.Run
import proofs.«171387_g2783138808134_cont_9to1_832_9_alg».proof.Proof.Gen.ReferenceIdeal.Read
import proofs.«171387_g2783138808134_cont_9to1_832_9_alg».proof.Proof.Spec

noncomputable section

open scoped BigOperators

namespace Cert.ReferenceIdeal.RefValue

open Cert.ReferenceIdeal Cert.ReferenceIdeal.Read Idealize.ShloMosaic Idealize.ShloMosaic.ValueIdx

/-- The operand indices of the outer product are the coordinates `(i, k)` and `(k, n)`. -/
theorem lidx1 (i : S10000x128.Idx) (k : Fin 10000) : lidx_main_v1 i k = ix2 (i 0 : Fin 10000) k :=
  funext fun a => Fin.ext (by match a with | ⟨0, _⟩ => rfl | ⟨1, _⟩ => rfl)
theorem ridx1 (i : S10000x128.Idx) (k : Fin 10000) : ridx_main_v1 i k = ix2 k (i 1 : Fin 128) :=
  funext fun a => Fin.ext (by match a with | ⟨0, _⟩ => rfl | ⟨1, _⟩ => rfl)

/-- The reference's result is the specification's function of the three arguments. -/
theorem ref_eq (x : (⟨S10000x128, .f32⟩ : BufTy).Contents (Elt Ideal)) (adj : (⟨S10000x10000, .f32⟩ : BufTy).Contents (Elt Ideal))
    (W : (⟨S128x128, .f32⟩ : BufTy).Contents (Elt Ideal)) :
    val_main_v1 (F := Ideal) x adj W = Cert.GcnSpec.G x adj W := by
  funext i
  rw [val_main_v1_apply]
  unfold Cert.GcnSpec.G Cert.GcnSpec.support
  refine Finset.sum_congr rfl fun k _ => ?_
  rw [val_main_v0_apply, lidx1, ridx1]
  refine congrArg (adj (ix2 (i 0 : Fin 10000) k) * ·) (Finset.sum_congr rfl fun j _ => ?_)
  exact congrArg₂ (· * ·)
    (congrArg x (funext fun a => Fin.ext (by match a with | ⟨0, _⟩ => rfl | ⟨1, _⟩ => rfl)))
    (congrArg W (funext fun a => Fin.ext (by match a with | ⟨0, _⟩ => rfl | ⟨1, _⟩ => rfl)))

end Cert.ReferenceIdeal.RefValue

end
-- ==== Proof.lean ====
/-
  The certificate of the graph-convolution kernel `out = adj · (x · W)` against jnp's two `dot`s.

  The kernel computes the support `x · W` once, at the first of twenty grid points, into a buffer it keeps, and at
  every point multiplies two 256-row bands of `adj` by it, writing rows 0 … 5119 and rows 5120 … 9999 of the answer
  through two result arrays that @main concatenates. Over the extended reals both programs compute, at node `i` and
  channel `n`, the same two nested sums `∑ₖ adj[i,k] · ∑ⱼ x[k,j] · W[j,n]` (`Cert.GcnSpec.G`): nothing is reordered, no
  algebraic law is needed and the finiteness of the inputs is not used. The last band of the second stream overhangs
  the matrix; its staging rows past the matrix's end are not named, and a row of a matrix product depends on the same
  row of its left factor alone, so the sixteen rows that are written back are the specification's.

  The three frames: the word-level kernel's and the idealized kernel's are the program's run read at the argument
  arrays (inputs are never written back); the reference's is its run with the result dropped. The idealization
  rewrote nothing, so `preserves` is trivial.
-/
import proofs.«171387_g2783138808134_cont_9to1_832_9_alg».proof.Defs
import proofs.«171387_g2783138808134_cont_9to1_832_9_alg».proof.Proof.Gen.Kernel
import proofs.«171387_g2783138808134_cont_9to1_832_9_alg».proof.Proof.Gen.KernelIdeal
import proofs.«171387_g2783138808134_cont_9to1_832_9_alg».proof.Proof.Gen.ReferenceIdeal
import proofs.«171387_g2783138808134_cont_9to1_832_9_alg».proof.Proof.Gen.Pre_finite_inputs
import proofs.«171387_g2783138808134_cont_9to1_832_9_alg».proof.Proof.Run
import proofs.«171387_g2783138808134_cont_9to1_832_9_alg».proof.Proof.WordLevel.Run
import proofs.«171387_g2783138808134_cont_9to1_832_9_alg».proof.Proof.RowLocalIdeal
import proofs.«171387_g2783138808134_cont_9to1_832_9_alg».proof.Proof.KernelValue
import proofs.«171387_g2783138808134_cont_9to1_832_9_alg».proof.Proof.ConcatValue
import proofs.«171387_g2783138808134_cont_9to1_832_9_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves `x`, `adj` and `W` as they were (the second result's contents, which the
    word-level product of the overhanging band makes unnameable, are not named). -/
theorem frame_word : Cert.frame_Kernel := by
  intro m g _
  refine (θ_run Cert.Kernel.defs _ _).mono (fun r h c => ?_)
    (Cert.Kernel.Hand.run_main (F := Bits) m g true (fun hb => absurd hb (by decide)))
  exact ⟨Cert.Kernel.Hand.input_kept m true c 0 rfl rfl _ ((h c).1 0),
    Cert.Kernel.Hand.input_kept m true c 2 rfl rfl _ ((h c).1 2),
    Cert.Kernel.Hand.input_kept m true c 1 rfl rfl _ ((h c).1 1)⟩

/-- The idealized kernel's likewise. -/
theorem frame_ideal : Cert.frame_KernelIdeal := by
  intro m g _
  refine (θ_run Cert.KernelIdeal.defs _ _).mono (fun r h c => ?_)
    (Cert.KernelIdeal.Hand.run_main (F := Ideal) m g true (fun hb => absurd hb (by decide)))
  exact ⟨Cert.KernelIdeal.Hand.input_kept m true c 0 rfl rfl _ ((h c).1 0),
    Cert.KernelIdeal.Hand.input_kept m true c 2 rfl rfl _ ((h c).1 2),
    Cert.KernelIdeal.Hand.input_kept m true c 1 rfl rfl _ ((h c).1 1)⟩

/-- The reference's frame: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Over the extended reals the kernel's answer — the two results, each the specification's rows, laid end to end — and
    the reference's two products are the one function `Cert.GcnSpec.G` of arguments that agree. -/
theorem algebraic : Cert.algebraic_KernelIdeal_ReferenceIdeal := by
  intro m g m' g' _ hagree
  refine ⟨fun c => Cert.GcnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_,
        Cert.KernelIdeal.Hand.input_kept m false c 0 rfl rfl _ ((h c).1 0),
        Cert.KernelIdeal.Hand.input_kept m false c 2 rfl rfl _ ((h c).1 2),
        Cert.KernelIdeal.Hand.input_kept m false c 1 rfl rfl _ ((h c).1 1)⟩)
      (Cert.KernelIdeal.Hand.run_main (F := Ideal) m g false (fun _ => Cert.KernelIdeal.Hand.rowLocal_ideal))
    rw [(h c).2 rfl]
    exact Cert.KernelIdeal.Hand.concat_rows _ _ _ (Cert.KernelIdeal.Hand.final4_apply m c) (Cert.KernelIdeal.Hand.final5_apply m c)
  · refine (θ_run Cert.ReferenceIdeal.defs _ _).mono (fun r h c => ⟨?_, (h c).2⟩)
      (Cert.ReferenceIdeal.Value.run (F := Ideal) m' g')
    rw [(h c).1, Cert.ReferenceIdeal.Read.val_main_v1_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
